-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x768x768x2 : Shape := ⟨4, ![4, 768, 768, 2]⟩
abbrev S16x1024x1024 : Shape := ⟨3, ![16, 1024, 1024]⟩
abbrev S_ : Shape := ⟨0, ![]⟩

class Facts : Prop where
  bcast_S_S4x768x768x2 : S_.BroadcastsInDim S4x768x768x2 (![] : Fin 0 → Fin S4x768x768x2.rank)
  reducesTo_S4x768x768x2_S_d0_1_2_3 : S4x768x768x2.ReducesTo [0, 1, 2, 3] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn {F : FTy → Type} [FloatOps F] (main_arg0 : FVec F S4x768x768x2 .f32) (main_arg1 : FVec F S16x1024x1024 .f32) : IVec S_ 1 :=
  let main_v0 : FVec F S4x768x768x2 .f32 := Host.absf main_arg0
  let main_cst : FVec F S_ .f32 := constant S_ .f32 0x7F800000#32
  let main_v1 : FVec F S4x768x768x2 .f32 := broadcastInDim S4x768x768x2 ![] bcast_S_S4x768x768x2 main_cst
  let main_v2 : IVec S4x768x768x2 1 := cmpf .olt main_v0 main_v1
  let main_c : IVec S_ 1 := constantI S_ 1 1#1
  let main_v3 : IVec S_ 1 := (fun x v => Host.reduce IntOp.andi x v reducesTo_S4x768x768x2_S_d0_1_2_3 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S4x768x768x2 : Shape := ⟨4, ![4, 768, 768, 2]⟩
abbrev S16x1024x1024 : Shape := ⟨3, ![16, 1024, 1024]⟩
abbrev S_ : Shape := ⟨0, ![]⟩
abbrev S4x768x768x1 : Shape := ⟨4, ![4, 768, 768, 1]⟩
abbrev S4x768x768 : Shape := ⟨3, ![4, 768, 768]⟩
abbrev S16x4x768x768 : Shape := ⟨4, ![16, 4, 768, 768]⟩
abbrev S4x16x768x768 : Shape := ⟨4, ![4, 16, 768, 768]⟩
abbrev S1x8x48x768 : Shape := ⟨4, ![1, 8, 48, 768]⟩
abbrev S1x48x768 : Shape := ⟨3, ![1, 48, 768]⟩
abbrev S48x768 : Shape := ⟨2, ![48, 768]⟩
abbrev S8x48x768 : Shape := ⟨3, ![8, 48, 768]⟩

abbrev nBuf : Space → Nat
  | .hbm => 169
  | .vmem => 14
  | .smem => 0
  | _ => 0

abbrev hbmTy0_0 (i : Nat) : BufTy := match i % 128 with
  | 0 => ⟨S4x768x768x2, .f32⟩
  | 1 => ⟨S16x1024x1024, .f32⟩
  | 2 => ⟨S_, .f32⟩
  | 3 => ⟨S_, .f32⟩
  | 4 => ⟨S_, .f32⟩
  | 5 => ⟨S16x1024x1024, .f32⟩
  | 6 => ⟨S16x1024x1024, .f32⟩
  | 7 => ⟨S_, .f32⟩
  | 8 => ⟨S16x1024x1024, .f32⟩
  | 9 => ⟨S16x1024x1024, .f32⟩
  | 10 => ⟨S4x768x768x1, .f32⟩
  | 11 => ⟨S4x768x768, .f32⟩
  | 12 => ⟨S_, .f32⟩
  | 13 => ⟨S4x768x768, .f32⟩
  | 14 => ⟨S4x768x768, .f32⟩
  | 15 => ⟨S_, .f32⟩
  | 16 => ⟨S4x768x768, .f32⟩
  | 17 => ⟨S4x768x768, .f32⟩
  | 18 => ⟨S_, .f32⟩
  | 19 => ⟨S4x768x768, .f32⟩
  | 20 => ⟨S4x768x768, .f32⟩
  | 21 => ⟨S4x768x768x1, .f32⟩
  | 22 => ⟨S4x768x768, .f32⟩
  | 23 => ⟨S_, .f32⟩
  | 24 => ⟨S4x768x768, .f32⟩
  | 25 => ⟨S4x768x768, .f32⟩
  | 26 => ⟨S_, .f32⟩
  | 27 => ⟨S4x768x768, .f32⟩
  | 28 => ⟨S4x768x768, .f32⟩
  | 29 => ⟨S_, .f32⟩
  | 30 => ⟨S4x768x768, .f32⟩
  | 31 => ⟨S4x768x768, .f32⟩
  | 32 => ⟨S_, .f32⟩
  | 33 => ⟨S_, .i32⟩
  | 34 => ⟨S_, .f32⟩
  | 35 => ⟨S4x768x768, .f32⟩
  | 36 => ⟨S4x768x768, .f32⟩
  | 37 => ⟨S_, .f32⟩
  | 38 => ⟨S4x768x768, .f32⟩
  | 39 => ⟨S4x768x768, .f32⟩
  | 40 => ⟨S_, .f32⟩
  | 41 => ⟨S_, .i32⟩
  | 42 => ⟨S_, .f32⟩
  | 43 => ⟨S4x768x768, .f32⟩
  | 44 => ⟨S4x768x768, .f32⟩
  | 45 => ⟨S_, .f32⟩
  | 46 => ⟨S4x768x768, .f32⟩
  | 47 => ⟨S4x768x768, .f32⟩
  | 48 => ⟨S4x768x768, .f32⟩
  | 49 => ⟨S4x768x768, .f32⟩
  | 50 => ⟨S4x768x768, .f32⟩
  | 51 => ⟨S4x768x768, .f32⟩
  | 52 => ⟨S4x768x768, .i32⟩
  | 53 => ⟨S_, .i32⟩
  | 54 => ⟨S_, .i32⟩
  | 55 => ⟨S_, .i32⟩
  | 56 => ⟨S4x768x768, .i32⟩
  | 57 => ⟨S4x768x768, .i32⟩
  | 58 => ⟨S_, .i32⟩
  | 59 => ⟨S4x768x768, .i32⟩
  | 60 => ⟨S4x768x768, .i32⟩
  | 61 => ⟨S4x768x768, .i32⟩
  | 62 => ⟨S_, .i32⟩
  | 63 => ⟨S_, .i32⟩
  | 64 => ⟨S_, .i32⟩
  | 65 => ⟨S4x768x768, .i32⟩
  | 66 => ⟨S4x768x768, .i32⟩
  | 67 => ⟨S_, .i32⟩
  | 68 => ⟨S4x768x768, .i32⟩
  | 69 => ⟨S4x768x768, .i32⟩
  | 70 => ⟨S_, .i32⟩
  | 71 => ⟨S4x768x768, .i32⟩
  | 72 => ⟨S4x768x768, .i32⟩
  | 73 => ⟨S_, .i32⟩
  | 74 => ⟨S_, .i32⟩
  | 75 => ⟨S_, .i32⟩
  | 76 => ⟨S4x768x768, .i32⟩
  | 77 => ⟨S4x768x768, .i32⟩
  | 78 => ⟨S_, .i32⟩
  | 79 => ⟨S4x768x768, .i32⟩
  | 80 => ⟨S4x768x768, .i32⟩
  | 81 => ⟨S_, .i32⟩
  | 82 => ⟨S4x768x768, .i32⟩
  | 83 => ⟨S4x768x768, .i32⟩
  | 84 => ⟨S_, .i32⟩
  | 85 => ⟨S_, .i32⟩
  | 86 => ⟨S_, .i32⟩
  | 87 => ⟨S4x768x768, .i32⟩
  | 88 => ⟨S4x768x768, .i32⟩
  | 89 => ⟨S_, .i32⟩
  | 90 => ⟨S4x768x768, .i32⟩
  | 91 => ⟨S4x768x768, .i32⟩
  | 92 => ⟨S_, .i32⟩
  | 93 => ⟨S4x768x768, .i32⟩
  | 94 => ⟨S4x768x768, .i1⟩
  | 95 => ⟨S_, .i32⟩
  | 96 => ⟨S4x768x768, .i32⟩
  | 97 => ⟨S4x768x768, .i32⟩
  | 98 => ⟨S4x768x768, .i32⟩
  | 99 => ⟨S_, .i32⟩
  | 100 => ⟨S4x768x768, .i32⟩
  | 101 => ⟨S4x768x768, .i1⟩
  | 102 => ⟨S_, .i32⟩
  | 103 => ⟨S4x768x768, .i32⟩
  | 104 => ⟨S4x768x768, .i32⟩
  | 105 => ⟨S4x768x768, .i32⟩
  | 106 => ⟨S4x768x768x1, .i32⟩
  | 107 => ⟨S4x768x768x1, .i32⟩
  | 108 => ⟨S4x768x768x2, .i32⟩
  | 109 => ⟨S16x4x768x768, .f32⟩
  | 110 => ⟨S4x16x768x768, .f32⟩
  | 111 => ⟨S_, .i32⟩
  | 112 => ⟨S4x768x768, .i32⟩
  | 113 => ⟨S4x768x768, .i1⟩
  | 114 => ⟨S_, .i32⟩
  | 115 => ⟨S4x768x768, .i32⟩
  | 116 => ⟨S4x768x768, .i32⟩
  | 117 => ⟨S4x768x768, .i32⟩
  | 118 => ⟨S_, .i32⟩
  | 119 => ⟨S4x768x768, .i32⟩
  | 120 => ⟨S4x768x768, .i1⟩
  | 121 => ⟨S_, .i32⟩
  | 122 => ⟨S4x768x768, .i32⟩
  | 123 => ⟨S4x768x768, .i32⟩
  | 124 => ⟨S4x768x768, .i32⟩
  | 125 => ⟨S4x768x768x1, .i32⟩
  | 126 => ⟨S4x768x768x1, .i32⟩
  | 127 => ⟨S4x768x768x2, .i32⟩
  | _ => ⟨S4x768x768x2, .f32⟩

abbrev hbmTy0_1 (i : Nat) : BufTy := match i % 128 with
  | 0 => ⟨S16x4x768x768, .f32⟩
  | 1 => ⟨S4x16x768x768, .f32⟩
  | 2 => ⟨S_, .i32⟩
  | 3 => ⟨S4x768x768, .i32⟩
  | 4 => ⟨S4x768x768, .i1⟩
  | 5 => ⟨S_, .i32⟩
  | 6 => ⟨S4x768x768, .i32⟩
  | 7 => ⟨S4x768x768, .i32⟩
  | 8 => ⟨S4x768x768, .i32⟩
  | 9 => ⟨S_, .i32⟩
  | 10 => ⟨S4x768x768, .i32⟩
  | 11 => ⟨S4x768x768, .i1⟩
  | 12 => ⟨S_, .i32⟩
  | 13 => ⟨S4x768x768, .i32⟩
  | 14 => ⟨S4x768x768, .i32⟩
  | 15 => ⟨S4x768x768, .i32⟩
  | 16 => ⟨S4x768x768x1, .i32⟩
  | 17 => ⟨S4x768x768x1, .i32⟩
  | 18 => ⟨S4x768x768x2, .i32⟩
  | 19 => ⟨S16x4x768x768, .f32⟩
  | 20 => ⟨S4x16x768x768, .f32⟩
  | 21 => ⟨S_, .i32⟩
  | 22 => ⟨S4x768x768, .i32⟩
  | 23 => ⟨S4x768x768, .i1⟩
  | 24 => ⟨S_, .i32⟩
  | 25 => ⟨S4x768x768, .i32⟩
  | 26 => ⟨S4x768x768, .i32⟩
  | 27 => ⟨S4x768x768, .i32⟩
  | 28 => ⟨S_, .i32⟩
  | 29 => ⟨S4x768x768, .i32⟩
  | 30 => ⟨S4x768x768, .i1⟩
  | 31 => ⟨S_, .i32⟩
  | 32 => ⟨S4x768x768, .i32⟩
  | 33 => ⟨S4x768x768, .i32⟩
  | 34 => ⟨S4x768x768, .i32⟩
  | 35 => ⟨S4x768x768x1, .i32⟩
  | 36 => ⟨S4x768x768x1, .i32⟩
  | 37 => ⟨S4x768x768x2, .i32⟩
  | 38 => ⟨S16x4x768x768, .f32⟩
  | 39 => ⟨S4x16x768x768, .f32⟩
  | 40 => ⟨S4x16x768x768, .f32⟩
  | _ => ⟨S4x768x768x2, .f32⟩

abbrev hbmTy (i : Nat) : BufTy := match i / 128 with
  | 0 => hbmTy0_0 i
  | 1 => hbmTy0_1 i
  | _ => ⟨S4x768x768x2, .f32⟩

abbrev bufTy : (tb : Table) → Fin (tcTables nBuf tb) → BufTy
  | .hbm, ⟨i, _⟩ => hbmTy i
  | .local _ .vmem, ⟨0, _⟩ => ⟨S1x8x48x768, .f32⟩
  | .local _ .vmem, ⟨1, _⟩ => ⟨S1x8x48x768, .f32⟩
  | .local _ .vmem, ⟨2, _⟩ => ⟨S1x8x48x768, .f32⟩
  | .local _ .vmem, ⟨3, _⟩ => ⟨S1x8x48x768, .f32⟩
  | .local _ .vmem, ⟨4, _⟩ => ⟨S1x8x48x768, .f32⟩
  | .local _ .vmem, ⟨5, _⟩ => ⟨S1x8x48x768, .f32⟩
  | .local _ .vmem, ⟨6, _⟩ => ⟨S1x8x48x768, .f32⟩
  | .local _ .vmem, ⟨7, _⟩ => ⟨S1x8x48x768, .f32⟩
  | .local _ .vmem, ⟨8, _⟩ => ⟨S1x48x768, .f32⟩
  | .local _ .vmem, ⟨9, _⟩ => ⟨S1x48x768, .f32⟩
  | .local _ .vmem, ⟨10, _⟩ => ⟨S1x48x768, .f32⟩
  | .local _ .vmem, ⟨11, _⟩ => ⟨S1x48x768, .f32⟩
  | .local _ .vmem, ⟨12, _⟩ => ⟨S1x8x48x768, .f32⟩
  | .local _ .vmem, ⟨13, _⟩ => ⟨S1x8x48x768, .f32⟩
  | _, _ => ⟨S4x768x768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v17 : Ref sig .tc := ⟨.hbm, 39, rfl⟩
abbrev main_cst_8 : Ref sig .tc := ⟨.hbm, 40, rfl⟩
abbrev main_c_9 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_10 : Ref sig .tc := ⟨.hbm, 53, rfl⟩
abbrev main_c_11 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v24 : Ref sig .tc := ⟨.hbm, 60, rfl⟩
abbrev main_v25 : Ref sig .tc := ⟨.hbm, 61, rfl⟩
abbrev main_c_12 : Ref sig .tc := ⟨.hbm, 62, rfl⟩
abbrev main_c_13 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_v26 : Ref sig .tc := ⟨.hbm, 69, rfl⟩
abbrev main_c_14 : Ref sig .tc := ⟨.hbm, 70, rfl⟩
abbrev main_v27 : Ref sig .tc := ⟨.hbm, 71, rfl⟩
abbrev main_v28 : Ref sig .tc := ⟨.hbm, 72, rfl⟩
abbrev main_c_15 : Ref sig .tc := ⟨.hbm, 73, rfl⟩
abbrev main_c_16 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v29 : Ref sig .tc := ⟨.hbm, 80, rfl⟩
abbrev main_c_17 : Ref sig .tc := ⟨.hbm, 81, rfl⟩
abbrev main_v30 : Ref sig .tc := ⟨.hbm, 82, rfl⟩
abbrev main_v31 : Ref sig .tc := ⟨.hbm, 83, rfl⟩
abbrev main_c_18 : Ref sig .tc := ⟨.hbm, 84, rfl⟩
abbrev main_c_19 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_v32 : Ref sig .tc := ⟨.hbm, 91, rfl⟩
abbrev main_c_20 : Ref sig .tc := ⟨.hbm, 92, rfl⟩
abbrev main_v33 : Ref sig .tc := ⟨.hbm, 93, rfl⟩
abbrev main_v34 : Ref sig .tc := ⟨.hbm, 94, rfl⟩
abbrev main_c_21 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_c_22 : Ref sig .tc := ⟨.hbm, 99, rfl⟩
abbrev main_v38 : Ref sig .tc := ⟨.hbm, 100, rfl⟩
abbrev main_v39 : Ref sig .tc := ⟨.hbm, 101, rfl⟩
abbrev main_c_23 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_c_24 : Ref sig .tc := ⟨.hbm, 111, rfl⟩
abbrev main_v48 : Ref sig .tc := ⟨.hbm, 112, rfl⟩
abbrev main_v49 : Ref sig .tc := ⟨.hbm, 113, rfl⟩
abbrev main_c_25 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_c_26 : Ref sig .tc := ⟨.hbm, 118, rfl⟩
abbrev main_v53 : Ref sig .tc := ⟨.hbm, 119, rfl⟩
abbrev main_v54 : Ref sig .tc := ⟨.hbm, 120, rfl⟩
abbrev main_c_27 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_c_28 : Ref sig .tc := ⟨.hbm, 130, rfl⟩
abbrev main_v63 : Ref sig .tc := ⟨.hbm, 131, rfl⟩
abbrev main_v64 : Ref sig .tc := ⟨.hbm, 132, rfl⟩
abbrev main_c_29 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_c_30 : Ref sig .tc := ⟨.hbm, 137, rfl⟩
abbrev main_v68 : Ref sig .tc := ⟨.hbm, 138, rfl⟩
abbrev main_v69 : Ref sig .tc := ⟨.hbm, 139, rfl⟩
abbrev main_c_31 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_c_32 : Ref sig .tc := ⟨.hbm, 149, rfl⟩
abbrev main_v78 : Ref sig .tc := ⟨.hbm, 150, rfl⟩
abbrev main_v79 : Ref sig .tc := ⟨.hbm, 151, rfl⟩
abbrev main_c_33 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_c_34 : Ref sig .tc := ⟨.hbm, 156, rfl⟩
abbrev main_v83 : Ref sig .tc := ⟨.hbm, 157, rfl⟩
abbrev main_v84 : Ref sig .tc := ⟨.hbm, 158, rfl⟩
abbrev main_c_35 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S1x8x48x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x48x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x48x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x48x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x48x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x48x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x8x48x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bcast_S_S16x1024x1024 : S_.BroadcastsInDim S16x1024x1024 (![] : Fin 0 → Fin S16x1024x1024.rank)
  slices_S4x768x768x2_S4x768x768x1_0_0_0_0 : S4x768x768x2.Slices ![0, 0, 0, 0] S4x768x768x1
  shapeCasts_S4x768x768x1_S4x768x768 : S4x768x768x1.ShapeCasts S4x768x768
  bcast_S_S4x768x768 : S_.BroadcastsInDim S4x768x768 (![] : Fin 0 → Fin S4x768x768.rank)
  slices_S4x768x768x2_S4x768x768x1_0_0_0_1 : S4x768x768x2.Slices ![0, 0, 0, 1] S4x768x768x1
  bcast_S4x768x768_S4x768x768x1_0_1_2 : S4x768x768.BroadcastsInDim S4x768x768x1 (![0, 1, 2] : Fin 3 → Fin S4x768x768x1.rank)
  concatenates_S4x768x768x1_S4x768x768x1_S4x768x768x2_d3 : Shape.Concatenates [S4x768x768x1, S4x768x768x1] S4x768x768x2 3
  transposes_S16x4x768x768_S4x16x768x768_1_0_2_3 : S16x4x768x768.Transposes [1, 0, 2, 3] S4x16x768x768
  inb_S1x48x768_S1x48x768_0_0_0 : ∀ a, (![0, 0, 0] : Fin 3 → Nat) a + S1x48x768.size a ≤ S1x48x768.size a
  h_S1x48x768 : 0 < S1x48x768.numel
  shapeCasts_S1x48x768_S48x768 : S1x48x768.ShapeCasts S48x768
  shapeCasts_S48x768_S1x48x768 : S48x768.ShapeCasts S1x48x768
  inb_S1x8x48x768_S1x8x48x768_0_0_0_0 : ∀ a, (![0, 0, 0, 0] : Fin 4 → Nat) a + S1x8x48x768.size a ≤ S1x8x48x768.size a
  h_S1x8x48x768 : 0 < S1x8x48x768.numel
  shapeCasts_S1x8x48x768_S8x48x768 : S1x8x48x768.ShapeCasts S8x48x768
  broadcasts_S1x48x768_S8x48x768 : S1x48x768.Broadcasts S8x48x768
  shapeCasts_S8x48x768_S1x8x48x768 : S8x48x768.ShapeCasts S1x8x48x768
  gather_S16x1024x1024_S4x768x768x2_S16x4x768x768_0_12_n_n_12_3_1611_wf : GatherDims.WF S16x1024x1024 S4x768x768x2 S16x4x768x768 [0] [1, 2] [] [1, 2] [] 3 ![16, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x48x768.size a ≤ S4x16x768x768.size a
  hwx0_0 : ∀ i : grid0.Coords, EltTy.bits .f32 = 32 ∨ (Rect.block (s := S4x16x768x768) S1x8x48x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x48x768.size a ≤ S4x16x768x768.size a
  hwx0_1 : ∀ i : grid0.Coords, EltTy.bits .f32 = 32 ∨ (Rect.block (s := S4x16x768x768) S1x8x48x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x48x768.size a ≤ S4x16x768x768.size a
  hwx0_2 : ∀ i : grid0.Coords, EltTy.bits .f32 = 32 ∨ (Rect.block (s := S4x16x768x768) S1x8x48x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x48x768.size a ≤ S4x16x768x768.size a
  hwx0_3 : ∀ i : grid0.Coords, EltTy.bits .f32 = 32 ∨ (Rect.block (s := S4x16x768x768) S1x8x48x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x48x768.size a ≤ S4x768x768.size a
  hwx0_4 : ∀ i : grid0.Coords, EltTy.bits .f32 = 32 ∨ (Rect.block (s := S4x768x768) S1x48x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x48x768.size a ≤ S4x768x768.size a
  hwx0_5 : ∀ i : grid0.Coords, EltTy.bits .f32 = 32 ∨ (Rect.block (s := S4x768x768) S1x48x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x48x768.size a ≤ S4x16x768x768.size a
  hwx0_6 : ∀ i : grid0.Coords, EltTy.bits .f32 = 32 ∨ (Rect.block (s := S4x16x768x768) S1x8x48x768.size (cc0_transform_6 i) (hinb0_6 i)).WholeWords (EltTy.packing .f32)

variable [Facts₀]

def gather_S16x1024x1024_S4x768x768x2_S16x4x768x768_0_12_n_n_12_3_1611 : GatherDims S16x1024x1024 S4x768x768x2 S16x4x768x768 where
  offsetDims := [0]
  collapsedSliceDims := [1, 2]
  operandBatchingDims := []
  startIndicesBatchingDims := []
  startIndexMap := [1, 2]
  indexVectorDim := 3
  sliceSizes := ![16, 1, 1]
  wf := gather_S16x1024x1024_S4x768x768x2_S16x4x768x768_0_12_n_n_12_3_1611_wf

abbrev win0_0 : Pipeline.Window sig grid0 :=
  Pipeline.Window.ofSpec (Memref.whole main_v47) S1x8x48x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S1x8x48x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v77) S1x8x48x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v92) S1x8x48x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x48x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x48x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v93) S1x8x48x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x768x768x2 : Shape := ⟨4, ![4, 768, 768, 2]⟩
abbrev S16x1024x1024 : Shape := ⟨3, ![16, 1024, 1024]⟩
abbrev S_ : Shape := ⟨0, ![]⟩
abbrev S4x768x768x1 : Shape := ⟨4, ![4, 768, 768, 1]⟩
abbrev S4x768x768 : Shape := ⟨3, ![4, 768, 768]⟩
abbrev S16x4x768x768 : Shape := ⟨4, ![16, 4, 768, 768]⟩
abbrev S1x4x768x768 : Shape := ⟨4, ![1, 4, 768, 768]⟩
abbrev S4x16x768x768 : Shape := ⟨4, ![4, 16, 768, 768]⟩

abbrev nBuf : Space → Nat
  | .hbm => 198
  | .vmem => 0
  | .smem => 0
  | _ => 0

abbrev hbmTy0_0 (i : Nat) : BufTy := match i % 128 with
  | 0 => ⟨S4x768x768x2, .f32⟩
  | 1 => ⟨S16x1024x1024, .f32⟩
  | 2 => ⟨S_, .f32⟩
  | 3 => ⟨S_, .f32⟩
  | 4 => ⟨S_, .f32⟩
  | 5 => ⟨S16x1024x1024, .f32⟩
  | 6 => ⟨S16x1024x1024, .f32⟩
  | 7 => ⟨S_, .f32⟩
  | 8 => ⟨S16x1024x1024, .f32⟩
  | 9 => ⟨S16x1024x1024, .f32⟩
  | 10 => ⟨S4x768x768x1, .f32⟩
  | 11 => ⟨S4x768x768, .f32⟩
  | 12 => ⟨S_, .f32⟩
  | 13 => ⟨S4x768x768, .f32⟩
  | 14 => ⟨S4x768x768, .f32⟩
  | 15 => ⟨S_, .f32⟩
  | 16 => ⟨S4x768x768, .f32⟩
  | 17 => ⟨S4x768x768, .f32⟩
  | 18 => ⟨S_, .f32⟩
  | 19 => ⟨S4x768x768, .f32⟩
  | 20 => ⟨S4x768x768, .f32⟩
  | 21 => ⟨S4x768x768x1, .f32⟩
  | 22 => ⟨S4x768x768, .f32⟩
  | 23 => ⟨S_, .f32⟩
  | 24 => ⟨S4x768x768, .f32⟩
  | 25 => ⟨S4x768x768, .f32⟩
  | 26 => ⟨S_, .f32⟩
  | 27 => ⟨S4x768x768, .f32⟩
  | 28 => ⟨S4x768x768, .f32⟩
  | 29 => ⟨S_, .f32⟩
  | 30 => ⟨S4x768x768, .f32⟩
  | 31 => ⟨S4x768x768, .f32⟩
  | 32 => ⟨S_, .f32⟩
  | 33 => ⟨S_, .i32⟩
  | 34 => ⟨S_, .f32⟩
  | 35 => ⟨S4x768x768, .f32⟩
  | 36 => ⟨S4x768x768, .f32⟩
  | 37 => ⟨S_, .f32⟩
  | 38 => ⟨S4x768x768, .f32⟩
  | 39 => ⟨S4x768x768, .f32⟩
  | 40 => ⟨S_, .f32⟩
  | 41 => ⟨S_, .i32⟩
  | 42 => ⟨S_, .f32⟩
  | 43 => ⟨S4x768x768, .f32⟩
  | 44 => ⟨S4x768x768, .f32⟩
  | 45 => ⟨S_, .f32⟩
  | 46 => ⟨S4x768x768, .f32⟩
  | 47 => ⟨S4x768x768, .f32⟩
  | 48 => ⟨S4x768x768, .f32⟩
  | 49 => ⟨S4x768x768, .f32⟩
  | 50 => ⟨S4x768x768, .f32⟩
  | 51 => ⟨S4x768x768, .f32⟩
  | 52 => ⟨S4x768x768, .i32⟩
  | 53 => ⟨S_, .i32⟩
  | 54 => ⟨S_, .i32⟩
  | 55 => ⟨S_, .i32⟩
  | 56 => ⟨S4x768x768, .i32⟩
  | 57 => ⟨S4x768x768, .i32⟩
  | 58 => ⟨S_, .i32⟩
  | 59 => ⟨S4x768x768, .i32⟩
  | 60 => ⟨S4x768x768, .i32⟩
  | 61 => ⟨S4x768x768, .i32⟩
  | 62 => ⟨S_, .i32⟩
  | 63 => ⟨S_, .i32⟩
  | 64 => ⟨S_, .i32⟩
  | 65 => ⟨S4x768x768, .i32⟩
  | 66 => ⟨S4x768x768, .i32⟩
  | 67 => ⟨S_, .i32⟩
  | 68 => ⟨S4x768x768, .i32⟩
  | 69 => ⟨S4x768x768, .i32⟩
  | 70 => ⟨S_, .i32⟩
  | 71 => ⟨S4x768x768, .i32⟩
  | 72 => ⟨S4x768x768, .i32⟩
  | 73 => ⟨S_, .i32⟩
  | 74 => ⟨S_, .i32⟩
  | 75 => ⟨S_, .i32⟩
  | 76 => ⟨S4x768x768, .i32⟩
  | 77 => ⟨S4x768x768, .i32⟩
  | 78 => ⟨S_, .i32⟩
  | 79 => ⟨S4x768x768, .i32⟩
  | 80 => ⟨S4x768x768, .i32⟩
  | 81 => ⟨S_, .i32⟩
  | 82 => ⟨S4x768x768, .i32⟩
  | 83 => ⟨S4x768x768, .i32⟩
  | 84 => ⟨S_, .i32⟩
  | 85 => ⟨S_, .i32⟩
  | 86 => ⟨S_, .i32⟩
  | 87 => ⟨S4x768x768, .i32⟩
  | 88 => ⟨S4x768x768, .i32⟩
  | 89 => ⟨S_, .i32⟩
  | 90 => ⟨S4x768x768, .i32⟩
  | 91 => ⟨S4x768x768, .i32⟩
  | 92 => ⟨S_, .i32⟩
  | 93 => ⟨S4x768x768, .i32⟩
  | 94 => ⟨S4x768x768, .i1⟩
  | 95 => ⟨S_, .i32⟩
  | 96 => ⟨S4x768x768, .i32⟩
  | 97 => ⟨S4x768x768, .i32⟩
  | 98 => ⟨S4x768x768, .i32⟩
  | 99 => ⟨S_, .i32⟩
  | 100 => ⟨S4x768x768, .i32⟩
  | 101 => ⟨S4x768x768, .i1⟩
  | 102 => ⟨S_, .i32⟩
  | 103 => ⟨S4x768x768, .i32⟩
  | 104 => ⟨S4x768x768, .i32⟩
  | 105 => ⟨S4x768x768, .i32⟩
  | 106 => ⟨S4x768x768x1, .i32⟩
  | 107 => ⟨S4x768x768x1, .i32⟩
  | 108 => ⟨S4x768x768x2, .i32⟩
  | 109 => ⟨S16x4x768x768, .f32⟩
  | 110 => ⟨S_, .i32⟩
  | 111 => ⟨S4x768x768, .i32⟩
  | 112 => ⟨S4x768x768, .i1⟩
  | 113 => ⟨S_, .i32⟩
  | 114 => ⟨S4x768x768, .i32⟩
  | 115 => ⟨S4x768x768, .i32⟩
  | 116 => ⟨S4x768x768, .i32⟩
  | 117 => ⟨S_, .i32⟩
  | 118 => ⟨S4x768x768, .i32⟩
  | 119 => ⟨S4x768x768, .i1⟩
  | 120 => ⟨S_, .i32⟩
  | 121 => ⟨S4x768x768, .i32⟩
  | 122 => ⟨S4x768x768, .i32⟩
  | 123 => ⟨S4x768x768, .i32⟩
  | 124 => ⟨S4x768x768x1, .i32⟩
  | 125 => ⟨S4x768x768x1, .i32⟩
  | 126 => ⟨S4x768x768x2, .i32⟩
  | 127 => ⟨S16x4x768x768, .f32⟩
  | _ => ⟨S4x768x768x2, .f32⟩

abbrev hbmTy0_1 (i : Nat) : BufTy := match i % 128 with
  | 0 => ⟨S_, .i32⟩
  | 1 => ⟨S4x768x768, .i32⟩
  | 2 => ⟨S4x768x768, .i1⟩
  | 3 => ⟨S_, .i32⟩
  | 4 => ⟨S4x768x768, .i32⟩
  | 5 => ⟨S4x768x768, .i32⟩
  | 6 => ⟨S4x768x768, .i32⟩
  | 7 => ⟨S_, .i32⟩
  | 8 => ⟨S4x768x768, .i32⟩
  | 9 => ⟨S4x768x768, .i1⟩
  | 10 => ⟨S_, .i32⟩
  | 11 => ⟨S4x768x768, .i32⟩
  | 12 => ⟨S4x768x768, .i32⟩
  | 13 => ⟨S4x768x768, .i32⟩
  | 14 => ⟨S4x768x768x1, .i32⟩
  | 15 => ⟨S4x768x768x1, .i32⟩
  | 16 => ⟨S4x768x768x2, .i32⟩
  | 17 => ⟨S16x4x768x768, .f32⟩
  | 18 => ⟨S_, .i32⟩
  | 19 => ⟨S4x768x768, .i32⟩
  | 20 => ⟨S4x768x768, .i1⟩
  | 21 => ⟨S_, .i32⟩
  | 22 => ⟨S4x768x768, .i32⟩
  | 23 => ⟨S4x768x768, .i32⟩
  | 24 => ⟨S4x768x768, .i32⟩
  | 25 => ⟨S_, .i32⟩
  | 26 => ⟨S4x768x768, .i32⟩
  | 27 => ⟨S4x768x768, .i1⟩
  | 28 => ⟨S_, .i32⟩
  | 29 => ⟨S4x768x768, .i32⟩
  | 30 => ⟨S4x768x768, .i32⟩
  | 31 => ⟨S4x768x768, .i32⟩
  | 32 => ⟨S4x768x768x1, .i32⟩
  | 33 => ⟨S4x768x768x1, .i32⟩
  | 34 => ⟨S4x768x768x2, .i32⟩
  | 35 => ⟨S16x4x768x768, .f32⟩
  | 36 => ⟨S1x4x768x768, .f32⟩
  | 37 => ⟨S1x4x768x768, .f32⟩
  | 38 => ⟨S_, .f32⟩
  | 39 => ⟨S1x4x768x768, .f32⟩
  | 40 => ⟨S1x4x768x768, .f32⟩
  | 41 => ⟨S16x4x768x768, .f32⟩
  | 42 => ⟨S16x4x768x768, .f32⟩
  | 43 => ⟨S_, .f32⟩
  | 44 => ⟨S1x4x768x768, .f32⟩
  | 45 => ⟨S1x4x768x768, .f32⟩
  | 46 => ⟨S16x4x768x768, .f32⟩
  | 47 => ⟨S16x4x768x768, .f32⟩
  | 48 => ⟨S16x4x768x768, .f32⟩
  | 49 => ⟨S16x4x768x768, .f32⟩
  | 50 => ⟨S_, .f32⟩
  | 51 => ⟨S1x4x768x768, .f32⟩
  | 52 => ⟨S1x4x768x768, .f32⟩
  | 53 => ⟨S16x4x768x768, .f32⟩
  | 54 => ⟨S16x4x768x768, .f32⟩
  | 55 => ⟨S16x4x768x768, .f32⟩
  | 56 => ⟨S_, .f32⟩
  | 57 => ⟨S1x4x768x768, .f32⟩
  | 58 => ⟨S1x4x768x768, .f32⟩
  | 59 => ⟨S16x4x768x768, .f32⟩
  | 60 => ⟨S16x4x768x768, .f32⟩
  | 61 => ⟨S16x4x768x768, .f32⟩
  | 62 => ⟨S16x4x768x768, .f32⟩
  | 63 => ⟨S16x4x768x768, .f32⟩
  | 64 => ⟨S16x4x768x768, .f32⟩
  | 65 => ⟨S16x4x768x768, .f32⟩
  | 66 => ⟨S16x4x768x768, .f32⟩
  | 67 => ⟨S16x4x768x768, .f32⟩
  | 68 => ⟨S16x4x768x768, .f32⟩
  | 69 => ⟨S4x16x768x768, .f32⟩
  | _ => ⟨S4x768x768x2, .f32⟩

abbrev hbmTy (i : Nat) : BufTy := match i / 128 with
  | 0 => hbmTy0_0 i
  | 1 => hbmTy0_1 i
  | _ => ⟨S4x768x768x2, .f32⟩

abbrev bufTy : (tb : Table) → Fin (tcTables nBuf tb) → BufTy
  | .hbm, ⟨i, _⟩ => hbmTy i
  | _, _ => ⟨S4x768x768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v17 : Ref sig .tc := ⟨.hbm, 39, rfl⟩
abbrev main_cst_8 : Ref sig .tc := ⟨.hbm, 40, rfl⟩
abbrev main_c_9 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_10 : Ref sig .tc := ⟨.hbm, 53, rfl⟩
abbrev main_c_11 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v24 : Ref sig .tc := ⟨.hbm, 60, rfl⟩
abbrev main_v25 : Ref sig .tc := ⟨.hbm, 61, rfl⟩
abbrev main_c_12 : Ref sig .tc := ⟨.hbm, 62, rfl⟩
abbrev main_c_13 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_v26 : Ref sig .tc := ⟨.hbm, 69, rfl⟩
abbrev main_c_14 : Ref sig .tc := ⟨.hbm, 70, rfl⟩
abbrev main_v27 : Ref sig .tc := ⟨.hbm, 71, rfl⟩
abbrev main_v28 : Ref sig .tc := ⟨.hbm, 72, rfl⟩
abbrev main_c_15 : Ref sig .tc := ⟨.hbm, 73, rfl⟩
abbrev main_c_16 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v29 : Ref sig .tc := ⟨.hbm, 80, rfl⟩
abbrev main_c_17 : Ref sig .tc := ⟨.hbm, 81, rfl⟩
abbrev main_v30 : Ref sig .tc := ⟨.hbm, 82, rfl⟩
abbrev main_v31 : Ref sig .tc := ⟨.hbm, 83, rfl⟩
abbrev main_c_18 : Ref sig .tc := ⟨.hbm, 84, rfl⟩
abbrev main_c_19 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_v32 : Ref sig .tc := ⟨.hbm, 91, rfl⟩
abbrev main_c_20 : Ref sig .tc := ⟨.hbm, 92, rfl⟩
abbrev main_v33 : Ref sig .tc := ⟨.hbm, 93, rfl⟩
abbrev main_v34 : Ref sig .tc := ⟨.hbm, 94, rfl⟩
abbrev main_c_21 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_c_22 : Ref sig .tc := ⟨.hbm, 99, rfl⟩
abbrev main_v38 : Ref sig .tc := ⟨.hbm, 100, rfl⟩
abbrev main_v39 : Ref sig .tc := ⟨.hbm, 101, rfl⟩
abbrev main_c_23 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_c_24 : Ref sig .tc := ⟨.hbm, 110, rfl⟩
abbrev main_v47 : Ref sig .tc := ⟨.hbm, 111, rfl⟩
abbrev main_v48 : Ref sig .tc := ⟨.hbm, 112, rfl⟩
abbrev main_c_25 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_c_26 : Ref sig .tc := ⟨.hbm, 117, rfl⟩
abbrev main_v52 : Ref sig .tc := ⟨.hbm, 118, rfl⟩
abbrev main_v53 : Ref sig .tc := ⟨.hbm, 119, rfl⟩
abbrev main_c_27 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_c_28 : Ref sig .tc := ⟨.hbm, 128, rfl⟩
abbrev main_v61 : Ref sig .tc := ⟨.hbm, 129, rfl⟩
abbrev main_v62 : Ref sig .tc := ⟨.hbm, 130, rfl⟩
abbrev main_c_29 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_c_30 : Ref sig .tc := ⟨.hbm, 135, rfl⟩
abbrev main_v66 : Ref sig .tc := ⟨.hbm, 136, rfl⟩
abbrev main_v67 : Ref sig .tc := ⟨.hbm, 137, rfl⟩
abbrev main_c_31 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_c_32 : Ref sig .tc := ⟨.hbm, 146, rfl⟩
abbrev main_v75 : Ref sig .tc := ⟨.hbm, 147, rfl⟩
abbrev main_v76 : Ref sig .tc := ⟨.hbm, 148, rfl⟩
abbrev main_c_33 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_c_34 : Ref sig .tc := ⟨.hbm, 153, rfl⟩
abbrev main_v80 : Ref sig .tc := ⟨.hbm, 154, rfl⟩
abbrev main_v81 : Ref sig .tc := ⟨.hbm, 155, rfl⟩
abbrev main_c_35 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_cst_36 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_cst_37 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_cst_38 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_39 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  slices_S4x768x768x2_S4x768x768x1_0_0_0_0 : S4x768x768x2.Slices ![0, 0, 0, 0] S4x768x768x1
  shapeCasts_S4x768x768x1_S4x768x768 : S4x768x768x1.ShapeCasts S4x768x768
  bcast_S_S4x768x768 : S_.BroadcastsInDim S4x768x768 (![] : Fin 0 → Fin S4x768x768.rank)
  slices_S4x768x768x2_S4x768x768x1_0_0_0_1 : S4x768x768x2.Slices ![0, 0, 0, 1] S4x768x768x1
  bcast_S4x768x768_S4x768x768x1_0_1_2 : S4x768x768.BroadcastsInDim S4x768x768x1 (![0, 1, 2] : Fin 3 → Fin S4x768x768x1.rank)
  concatenates_S4x768x768x1_S4x768x768x1_S4x768x768x2_d3 : Shape.Concatenates [S4x768x768x1, S4x768x768x1] S4x768x768x2 3
  bcast_S4x768x768_S1x4x768x768_1_2_3 : S4x768x768.BroadcastsInDim S1x4x768x768 (![1, 2, 3] : Fin 3 → Fin S1x4x768x768.rank)
  bcast_S_S1x4x768x768 : S_.BroadcastsInDim S1x4x768x768 (![] : Fin 0 → Fin S1x4x768x768.rank)
  bcast_S1x4x768x768_S16x4x768x768_0_1_2_3 : S1x4x768x768.BroadcastsInDim S16x4x768x768 (![0, 1, 2, 3] : Fin 4 → Fin S16x4x768x768.rank)
  transposes_S16x4x768x768_S4x16x768x768_1_0_2_3 : S16x4x768x768.Transposes [1, 0, 2, 3] S4x16x768x768
  gather_S16x1024x1024_S4x768x768x2_S16x4x768x768_0_12_n_n_12_3_1611_wf : GatherDims.WF S16x1024x1024 S4x768x768x2 S16x4x768x768 [0] [1, 2] [] [1, 2] [] 3 ![16, 1, 1]

variable [Facts₀]

def gather_S16x1024x1024_S4x768x768x2_S16x4x768x768_0_12_n_n_12_3_1611 : GatherDims S16x1024x1024 S4x768x768x2 S16x4x768x768 where
  offsetDims := [0]
  collapsedSliceDims := [1, 2]
  operandBatchingDims := []
  startIndicesBatchingDims := []
  startIndexMap := [1, 2]
  indexVectorDim := 3
  sliceSizes := ![16, 1, 1]
  wf := gather_S16x1024x1024_S4x768x768x2_S16x4x768x768_0_12_n_n_12_3_1611_wf

class Facts : Prop extends Facts₀ where

variable [Facts]
-- ==== Proof.HostChain.lean ====
/-
  The host computation both programs share, as pure functions of the two arguments.

  Both programs start with the same operations on the grid x : [4, 768, 768, 2] and the texture data : [16, 1024, 1024]:
  the texture clamped to [-123.68, 151.061]; the two coordinates u = clamp((x[..., k] + 1) * 0.5 * 1023, 0, 1023)
  (k = 0 the column coordinate, k = 1 the row coordinate); the fractional weights u - floor u; the integer corners
  clamp(int(floor u), 0, 1023) and clamp(that + 1, 0, 1023); and four gathers texture[:, row, column] of the clamped
  texture at the four corner pairs, each index first moved into range by adding 1024 where negative and the two index
  planes joined on a trailing axis of size 2. The kernel transposes each gathered plane and blends in a pallas_call, the
  reference blends and transposes once; neither the gather nor the float-to-integer conversion is ever opened here:
  the two programs meet on these functions as they stand.
-/
import proofs.«417494_j64922725646779_3_alg».proof.Proof.Gen.ReferenceIdeal

noncomputable section

namespace Cert.ReferenceIdeal.Chain

open Cert.ReferenceIdeal Cert.ReferenceIdeal.Gen Idealize.ShloMosaic Idealize.ShloMosaic.TcCoe

variable {F : FTy → Type} [FloatOps F]

/-- The texture clamped to [-123.68, 151.061]. -/
def tex (d : (⟨S16x1024x1024, .f32⟩ : BufTy).Contents (Elt F)) : (⟨S16x1024x1024, .f32⟩ : BufTy).Contents (Elt F) :=
  minimumf (broadcastInDim S16x1024x1024 ![] bcast_S_S16x1024x1024 (id (constant S_ .f32 0x43170F9E#32)))
    (maximumf (broadcastInDim S16x1024x1024 ![] bcast_S_S16x1024x1024 (id (constant S_ .f32 0xC2F75C29#32))) d)

/-- A float plane clamped to [0, 1023] (the upper bound an integer converted to float). -/
def clampF (v : (⟨S4x768x768, .f32⟩ : BufTy).Contents (Elt F)) : (⟨S4x768x768, .f32⟩ : BufTy).Contents (Elt F) :=
  minimumf (broadcastInDim S4x768x768 ![] bcast_S_S4x768x768 (sitofp .f32 (constantI S_ 32 1023#32)))
    (maximumf (broadcastInDim S4x768x768 ![] bcast_S_S4x768x768 (id (constant S_ .f32 0x00000000#32))) v)

/-- (v + 1) * 0.5 * 1023. -/
def unnorm (v : (⟨S4x768x768, .f32⟩ : BufTy).Contents (Elt F)) : (⟨S4x768x768, .f32⟩ : BufTy).Contents (Elt F) :=
  mulf (mulf (addf v (broadcastInDim S4x768x768 ![] bcast_S_S4x768x768 (constant S_ .f32 0x3F800000#32))) (broadcastInDim S4x768x768 ![] bcast_S_S4x768x768 (constant S_ .f32 0x3F000000#32))) (broadcastInDim S4x768x768 ![] bcast_S_S4x768x768 (constant S_ .f32 0x447FC000#32))

/-- The column coordinate of every pixel, clamped: from x[..., 0]. -/
def ucol (x : (⟨S4x768x768x2, .f32⟩ : BufTy).Contents (Elt F)) : (⟨S4x768x768, .f32⟩ : BufTy).Contents (Elt F) :=
  clampF (unnorm (shapeCast _ (extractStridedSlice S4x768x768x1 ![0, 0, 0, 0] x slices_S4x768x768x2_S4x768x768x1_0_0_0_0) shapeCasts_S4x768x768x1_S4x768x768))

/-- The row coordinate of every pixel, clamped: from x[..., 1]. -/
def urow (x : (⟨S4x768x768x2, .f32⟩ : BufTy).Contents (Elt F)) : (⟨S4x768x768, .f32⟩ : BufTy).Contents (Elt F) :=
  clampF (unnorm (shapeCast _ (extractStridedSlice S4x768x768x1 ![0, 0, 0, 1] x slices_S4x768x768x2_S4x768x768x1_0_0_0_1) shapeCasts_S4x768x768x1_S4x768x768))

/-- The fractional part of a coordinate plane: the bilinear weight. -/
def frac (u : (⟨S4x768x768, .f32⟩ : BufTy).Contents (Elt F)) : (⟨S4x768x768, .f32⟩ : BufTy).Contents (Elt F) :=
  subf u (Host.floor u)

/-- An integer plane clamped to [0, 1023]. -/
def clampI (v : (⟨S4x768x768, .i32⟩ : BufTy).Contents (Elt F)) : (⟨S4x768x768, .i32⟩ : BufTy).Contents (Elt F) :=
  minsi (broadcastInDim S4x768x768 ![] bcast_S_S4x768x768 (id (constantI S_ 32 1023#32))) (maxsi (broadcastInDim S4x768x768 ![] bcast_S_S4x768x768 (id (constantI S_ 32 0#32))) v)

/-- The lower corner of a coordinate plane: floor, to integer, clamped. -/
def lo (u : (⟨S4x768x768, .f32⟩ : BufTy).Contents (Elt F)) : (⟨S4x768x768, .i32⟩ : BufTy).Contents (Elt F) :=
  clampI (F := F) (fptosi 32 (Host.floor u))

/-- The upper corner: the lower corner plus one, clamped. -/
def hi (u : (⟨S4x768x768, .f32⟩ : BufTy).Contents (Elt F)) : (⟨S4x768x768, .i32⟩ : BufTy).Contents (Elt F) :=
  clampI (F := F) (addi (lo u) (broadcastInDim S4x768x768 ![] bcast_S_S4x768x768 (constantI S_ 32 1#32)))

/-- An index plane as the gather takes it: 1024 added where negative, then a trailing unit axis. -/
def column (v : (⟨S4x768x768, .i32⟩ : BufTy).Contents (Elt F)) : (⟨S4x768x768x1, .i32⟩ : BufTy).Contents (Elt F) :=
  broadcastInDim S4x768x768x1 ![0, 1, 2] bcast_S4x768x768_S4x768x768x1_0_1_2
    (select (cmpi .slt v (broadcastInDim S4x768x768 ![] bcast_S_S4x768x768 (constantI S_ 32 0#32))) (addi v (broadcastInDim S4x768x768 ![] bcast_S_S4x768x768 (constantI S_ 32 1024#32))) v)

/-- texture[:, row, column] at a pair of index planes: a [16, 4, 768, 768] array. -/
def gat (t : (⟨S16x1024x1024, .f32⟩ : BufTy).Contents (Elt F)) (r c : (⟨S4x768x768x1, .i32⟩ : BufTy).Contents (Elt F)) :
    (⟨S16x4x768x768, .f32⟩ : BufTy).Contents (Elt F) :=
  Host.gather gather_S16x1024x1024_S4x768x768x2_S16x4x768x768_0_12_n_n_12_3_1611 t
    (concatenate S4x768x768x2 3 [⟨S4x768x768x1, r⟩, ⟨S4x768x768x1, c⟩] concatenates_S4x768x768x1_S4x768x768x1_S4x768x768x2_d3)

/-- Equal operands, equal gathers: the one place the joined index array is opened, operand by operand. -/
theorem gat_congr {t t' : (⟨S16x1024x1024, .f32⟩ : BufTy).Contents (Elt F)} {r r' c c' : (⟨S4x768x768x1, .i32⟩ : BufTy).Contents (Elt F)}
    (ht : t = t') (hr : r = r') (hc : c = c') : gat t r c = gat t' r' c' := by
  subst ht hr hc; rfl

/-- The four gathered planes and the two weights, of the arguments. -/
def g00 (x : (⟨S4x768x768x2, .f32⟩ : BufTy).Contents (Elt F)) (d : (⟨S16x1024x1024, .f32⟩ : BufTy).Contents (Elt F)) :=
  gat (tex d) (column (F := F) (lo (urow x))) (column (F := F) (lo (ucol x)))
def g01 (x : (⟨S4x768x768x2, .f32⟩ : BufTy).Contents (Elt F)) (d : (⟨S16x1024x1024, .f32⟩ : BufTy).Contents (Elt F)) :=
  gat (tex d) (column (F := F) (lo (urow x))) (column (F := F) (hi (ucol x)))
def g10 (x : (⟨S4x768x768x2, .f32⟩ : BufTy).Contents (Elt F)) (d : (⟨S16x1024x1024, .f32⟩ : BufTy).Contents (Elt F)) :=
  gat (tex d) (column (F := F) (hi (urow x))) (column (F := F) (lo (ucol x)))
def g11 (x : (⟨S4x768x768x2, .f32⟩ : BufTy).Contents (Elt F)) (d : (⟨S16x1024x1024, .f32⟩ : BufTy).Contents (Elt F)) :=
  gat (tex d) (column (F := F) (hi (urow x))) (column (F := F) (hi (ucol x)))
def wx (x : (⟨S4x768x768x2, .f32⟩ : BufTy).Contents (Elt F)) := frac (ucol x)
def wy (x : (⟨S4x768x768x2, .f32⟩ : BufTy).Contents (Elt F)) := frac (urow x)

/-! ## The reference's blend on the host

The reference blends on [16, 4, 768, 768] arrays: each weight plane gets a leading unit axis, is (or is not) subtracted
from one, and is then repeated over the 16 channels; each term multiplies a gathered plane by one factor and then by
the other: (g * a) * b. -/

/-- A weight plane with a leading unit axis. -/
def lift1 (w : (⟨S4x768x768, .f32⟩ : BufTy).Contents (Elt F)) : (⟨S1x4x768x768, .f32⟩ : BufTy).Contents (Elt F) :=
  broadcastInDim S1x4x768x768 ![1, 2, 3] bcast_S4x768x768_S1x4x768x768_1_2_3 w

/-- The constant one of that shape. -/
def ones1 : (⟨S1x4x768x768, .f32⟩ : BufTy).Contents (Elt F) :=
  broadcastInDim S1x4x768x768 ![] bcast_S_S1x4x768x768 (constant S_ .f32 0x3F800000#32)

/-- Repeated over the 16 channels. -/
def overCh (z : (⟨S1x4x768x768, .f32⟩ : BufTy).Contents (Elt F)) : (⟨S16x4x768x768, .f32⟩ : BufTy).Contents (Elt F) :=
  broadcastInDim S16x4x768x768 ![0, 1, 2, 3] bcast_S1x4x768x768_S16x4x768x768_0_1_2_3 z

/-- (g00 (1 - wx)) (1 - wy) + (g01 wx) (1 - wy) + (g10 (1 - wx)) wy + (g11 wx) wy, array operations. -/
def blendHost (G00 G01 G10 G11 : (⟨S16x4x768x768, .f32⟩ : BufTy).Contents (Elt F)) (WX WY : (⟨S4x768x768, .f32⟩ : BufTy).Contents (Elt F)) :
    (⟨S16x4x768x768, .f32⟩ : BufTy).Contents (Elt F) :=
  addf (addf (addf
    (mulf (mulf G00 (overCh (subf ones1 (lift1 WX)))) (overCh (subf ones1 (lift1 WY))))
    (mulf (mulf G01 (overCh (lift1 WX))) (overCh (subf ones1 (lift1 WY)))))
    (mulf (mulf G10 (overCh (subf ones1 (lift1 WX)))) (overCh (lift1 WY))))
    (mulf (mulf G11 (overCh (lift1 WX))) (overCh (lift1 WY)))

/-- The reference's result as a function of the arguments: the host blend of the shared chain's planes and
    weights, transposed to [4, 16, 768, 768]. -/
def result (x : (⟨S4x768x768x2, .f32⟩ : BufTy).Contents (Elt F)) (d : (⟨S16x1024x1024, .f32⟩ : BufTy).Contents (Elt F)) :
    (⟨S4x16x768x768, .f32⟩ : BufTy).Contents (Elt F) :=
  transpose S4x16x768x768 [1, 0, 2, 3] (blendHost (g00 x d) (g01 x d) (g10 x d) (g11 x d) (wx x) (wy x)) transposes_S16x4x768x768_S4x16x768x768_1_0_2_3

end Cert.ReferenceIdeal.Chain

end
-- ==== Proof.BlendBlocks.lean ====
/-
  The kernel's value, read block by block.

  One grid point (core group cg, batch b, row tile h) holds, for 8 channels, 48 rows and 768 columns, the four
  gathered texel planes g00, g01, g10, g11 and the two fractional weights wx, wy of the same pixels, and writes

      out = g00 * ((1 - wx) * (1 - wy)) + g01 * (wx * (1 - wy)) + g10 * ((1 - wx) * wy) + g11 * (wx * wy)

  with the weights shared by the 8 channels. The block of every texel plane and of the output at a point is the same
  rectangle of [4, 16, 768, 768]: batch b, channels 8 cg .. 8 cg + 7, rows 48 h .. 48 h + 47, every column; the block of
  a weight plane is the rectangle of [4, 768, 768] under it (batch b, the same rows, every column). So what a point
  writes back is the block of ONE function of the six whole arrays, `blend`: the value at (b, ch, r, col) reads the
  texel planes at (b, ch, r, col) and the weights at the pixel (b, r, col). The 2 * 4 * 16 blocks tile the output,
  so after the run the output array is `blend` of the six arrays as the region finds them.
-/
import proofs.«417494_j64922725646779_3_alg».proof.Proof.Gen.KernelIdeal.Value
import Idealize.ShloMosaic.Lib.Pipeline.Value

set_option maxRecDepth 16384

noncomputable section

namespace Cert.KernelIdeal.Blend

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The pixel (batch, row, column) under an output index (batch, channel, row, column). -/
abbrev pix (i : S4x16x768x768.Idx) : S4x768x768.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- The bilinear blend of four texel planes with the products of the fractional weights, index by index: the
    weights are read at the pixel under the index, so they are shared by the channels. -/
def blend (g00 g01 g10 g11 : S4x16x768x768.Idx → Elt F .f32) (wx wy : S4x768x768.Idx → Elt F .f32) :
    S4x16x768x768.Idx → Elt F .f32 := fun i =>
  FloatOps.addf (FloatOps.addf (FloatOps.addf
    (FloatOps.mulf (g00 i) (FloatOps.mulf (FloatOps.subf (Scalar.ofBits .f32 0x3F800000#32) (wx (pix i))) (FloatOps.subf (Scalar.ofBits .f32 0x3F800000#32) (wy (pix i)))))
    (FloatOps.mulf (g01 i) (FloatOps.mulf (wx (pix i)) (FloatOps.subf (Scalar.ofBits .f32 0x3F800000#32) (wy (pix i))))))
    (FloatOps.mulf (g10 i) (FloatOps.mulf (FloatOps.subf (Scalar.ofBits .f32 0x3F800000#32) (wx (pix i))) (wy (pix i)))))
    (FloatOps.mulf (g11 i) (FloatOps.mulf (wx (pix i)) (wy (pix i))))

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- The block the body leaves is the pointwise blend of the six blocks it loaded: the body's one store covers the
    block, and its payload is the generated index-by-index form. -/
theorem out_eq (x0 x1 x2 x3 : Vec F S1x8x48x768 .f32) (x4 x5 : Vec F S1x48x768 .f32) :
    out0_6 x0 x1 x2 x3 x4 x5 = Value.E6 x0 x4 x5 x1 x2 x3 := by
  unfold out0_6
  simp only [View.ld_unit_zero (S := S1x8x48x768) zero4, View.ld_unit_zero (S := S1x48x768) zero3]
  funext y
  exact Value.canon6_eq x0 x4 x5 x1 x2 x3 y

/-- The pointwise blend of six blocks is the block of `blend` of six arrays, when each block entry is the array
    entry at the place `e` of the output block entry (texel planes) or at the pixel under it (weights). -/
theorem blend_blocks (X0 X1 X2 X3 : Vec F S1x8x48x768 .f32) (X4 X5 : Vec F S1x48x768 .f32)
    (A0 A1 A2 A3 : S4x16x768x768.Idx → Elt F .f32) (A4 A5 : S4x768x768.Idx → Elt F .f32)
    (e : S1x8x48x768.Idx → S4x16x768x768.Idx)
    (h0 : ∀ j j' : S1x8x48x768.Idx, (j' 1).val = (j 1).val → (j' 2).val = (j 2).val → (j' 3).val = (j 3).val → X0 j' = A0 (e j))
    (h1 : ∀ j j' : S1x8x48x768.Idx, (j' 1).val = (j 1).val → (j' 2).val = (j 2).val → (j' 3).val = (j 3).val → X1 j' = A1 (e j))
    (h2 : ∀ j j' : S1x8x48x768.Idx, (j' 1).val = (j 1).val → (j' 2).val = (j 2).val → (j' 3).val = (j 3).val → X2 j' = A2 (e j))
    (h3 : ∀ j j' : S1x8x48x768.Idx, (j' 1).val = (j 1).val → (j' 2).val = (j 2).val → (j' 3).val = (j 3).val → X3 j' = A3 (e j))
    (h4 : ∀ (j : S1x8x48x768.Idx) (p : S1x48x768.Idx), (p 1).val = (j 2).val → (p 2).val = (j 3).val → X4 p = A4 (pix (e j)))
    (h5 : ∀ (j : S1x8x48x768.Idx) (p : S1x48x768.Idx), (p 1).val = (j 2).val → (p 2).val = (j 3).val → X5 p = A5 (pix (e j)))
    (j : S1x8x48x768.Idx) :
    Value.E6 X0 X4 X5 X1 X2 X3 j = blend A0 A1 A2 A3 A4 A5 (e j) := by
  unfold blend
  show FloatOps.addf (FloatOps.addf (FloatOps.addf
      (FloatOps.mulf (X0 (Value.ix6_0 j)) (FloatOps.mulf (FloatOps.subf (Scalar.ofBits .f32 0x3F800000#32) (X4 (Value.ix6_1 j))) (FloatOps.subf (Scalar.ofBits .f32 0x3F800000#32) (X5 (Value.ix6_2 j)))))
      (FloatOps.mulf (X1 (Value.ix6_3 j)) (FloatOps.mulf (X4 (Value.ix6_4 j)) (FloatOps.subf (Scalar.ofBits .f32 0x3F800000#32) (X5 (Value.ix6_5 j))))))
      (FloatOps.mulf (X2 (Value.ix6_6 j)) (FloatOps.mulf (FloatOps.subf (Scalar.ofBits .f32 0x3F800000#32) (X4 (Value.ix6_7 j))) (X5 (Value.ix6_8 j)))))
      (FloatOps.mulf (X3 (Value.ix6_9 j)) (FloatOps.mulf (X4 (Value.ix6_10 j)) (X5 (Value.ix6_11 j)))) = _
  -- the weight blocks are read at one place (row, column of the block entry) in all four terms
  rw [h0 j (Value.ix6_0 j) rfl rfl rfl, h1 j (Value.ix6_3 j) rfl rfl rfl, h2 j (Value.ix6_6 j) rfl rfl rfl, h3 j (Value.ix6_9 j) rfl rfl rfl,
    h4 j (Value.ix6_1 j) rfl rfl, h5 j (Value.ix6_2 j) rfl rfl]

/-- The printed index maps, decided over the 128 grid points: the four texel windows sit on the output's block
    (batch, channel group, row tile, 0), the two weight windows on (batch, row tile, 0); and the ranges. -/
theorem idx_facts : ∀ t : Fin cfg0.N,
    (win0_0.index t (0 : Fin 4) = win0_6.index t (0 : Fin 4) ∧ win0_0.index t (1 : Fin 4) = win0_6.index t (1 : Fin 4)
      ∧ win0_0.index t (2 : Fin 4) = win0_6.index t (2 : Fin 4) ∧ win0_0.index t (3 : Fin 4) = win0_6.index t (3 : Fin 4))
    ∧ (win0_1.index t (0 : Fin 4) = win0_6.index t (0 : Fin 4) ∧ win0_1.index t (1 : Fin 4) = win0_6.index t (1 : Fin 4)
      ∧ win0_1.index t (2 : Fin 4) = win0_6.index t (2 : Fin 4) ∧ win0_1.index t (3 : Fin 4) = win0_6.index t (3 : Fin 4))
    ∧ (win0_2.index t (0 : Fin 4) = win0_6.index t (0 : Fin 4) ∧ win0_2.index t (1 : Fin 4) = win0_6.index t (1 : Fin 4)
      ∧ win0_2.index t (2 : Fin 4) = win0_6.index t (2 : Fin 4) ∧ win0_2.index t (3 : Fin 4) = win0_6.index t (3 : Fin 4))
    ∧ (win0_3.index t (0 : Fin 4) = win0_6.index t (0 : Fin 4) ∧ win0_3.index t (1 : Fin 4) = win0_6.index t (1 : Fin 4)
      ∧ win0_3.index t (2 : Fin 4) = win0_6.index t (2 : Fin 4) ∧ win0_3.index t (3 : Fin 4) = win0_6.index t (3 : Fin 4))
    ∧ (win0_4.index t (0 : Fin 3) = win0_6.index t (0 : Fin 4) ∧ win0_4.index t (1 : Fin 3) = win0_6.index t (2 : Fin 4)
      ∧ win0_4.index t (2 : Fin 3) = win0_6.index t (3 : Fin 4))
    ∧ (win0_5.index t (0 : Fin 3) = win0_6.index t (0 : Fin 4) ∧ win0_5.index t (1 : Fin 3) = win0_6.index t (2 : Fin 4)
      ∧ win0_5.index t (2 : Fin 3) = win0_6.index t (3 : Fin 4))
    ∧ (win0_6.index t (0 : Fin 4) ≤ 3 ∧ win0_6.index t (1 : Fin 4) ≤ 1 ∧ win0_6.index t (2 : Fin 4) ≤ 15 ∧ win0_6.index t (3 : Fin 4) = 0) :=
  (by decide +kernel : ∀ t : Fin grid0.N, _)

/-- Every block of the output is some point's. -/
theorem idx_onto : ∀ (q0 : Fin 4) (q1 : Fin 2) (q2 : Fin 16), ∃ t : Fin cfg0.N, win0_6.index t = ![q0.val, q1.val, q2.val, 0] :=
  (by decide +kernel : ∀ (q0 : Fin 4) (q1 : Fin 2) (q2 : Fin 16), ∃ t : Fin grid0.N, win0_6.index t = ![q0.val, q1.val, q2.val, 0])

/-! ## Each input block is its array read where the output's rectangle says -/

theorem emb_g0 (t : Fin cfg0.N) (j j' : S1x8x48x768.Idx) (h1 : (j' 1).val = (j 1).val) (h2 : (j' 2).val = (j 2).val) (h3 : (j' 3).val = (j 3).val) :
    ((cfg0.win 0).blk t).view.emb j' = ((cfg0.win 6).blk t).view.emb j := by
  obtain ⟨f0, f1, f2, f3, f4, f5, f6⟩ := idx_facts t
  have hj0 : (j 0).val < 1 := (j 0).isLt
  have hj0' : (j' 0).val < 1 := (j' 0).isLt
  funext a; apply Fin.ext
  match a with
  | ⟨0, _⟩ => show win0_0.index t (0 : Fin 4) * 1 + 1 * (j' 0).val = win0_6.index t (0 : Fin 4) * 1 + 1 * (j 0).val; have := f0.1; omega
  | ⟨1, _⟩ => show win0_0.index t (1 : Fin 4) * 8 + 1 * (j' 1).val = win0_6.index t (1 : Fin 4) * 8 + 1 * (j 1).val; have := f0.2.1; omega
  | ⟨2, _⟩ => show win0_0.index t (2 : Fin 4) * 48 + 1 * (j' 2).val = win0_6.index t (2 : Fin 4) * 48 + 1 * (j 2).val; have := f0.2.2.1; omega
  | ⟨3, _⟩ => show win0_0.index t (3 : Fin 4) * 768 + 1 * (j' 3).val = win0_6.index t (3 : Fin 4) * 768 + 1 * (j 3).val; have := f0.2.2.2; omega

theorem emb_g1 (t : Fin cfg0.N) (j j' : S1x8x48x768.Idx) (h1 : (j' 1).val = (j 1).val) (h2 : (j' 2).val = (j 2).val) (h3 : (j' 3).val = (j 3).val) :
    ((cfg0.win 1).blk t).view.emb j' = ((cfg0.win 6).blk t).view.emb j := by
  obtain ⟨f0, f1, f2, f3, f4, f5, f6⟩ := idx_facts t
  have hj0 : (j 0).val < 1 := (j 0).isLt
  have hj0' : (j' 0).val < 1 := (j' 0).isLt
  funext a; apply Fin.ext
  match a with
  | ⟨0, _⟩ => show win0_1.index t (0 : Fin 4) * 1 + 1 * (j' 0).val = win0_6.index t (0 : Fin 4) * 1 + 1 * (j 0).val; have := f1.1; omega
  | ⟨1, _⟩ => show win0_1.index t (1 : Fin 4) * 8 + 1 * (j' 1).val = win0_6.index t (1 : Fin 4) * 8 + 1 * (j 1).val; have := f1.2.1; omega
  | ⟨2, _⟩ => show win0_1.index t (2 : Fin 4) * 48 + 1 * (j' 2).val = win0_6.index t (2 : Fin 4) * 48 + 1 * (j 2).val; have := f1.2.2.1; omega
  | ⟨3, _⟩ => show win0_1.index t (3 : Fin 4) * 768 + 1 * (j' 3).val = win0_6.index t (3 : Fin 4) * 768 + 1 * (j 3).val; have := f1.2.2.2; omega

theorem emb_g2 (t : Fin cfg0.N) (j j' : S1x8x48x768.Idx) (h1 : (j' 1).val = (j 1).val) (h2 : (j' 2).val = (j 2).val) (h3 : (j' 3).val = (j 3).val) :
    ((cfg0.win 2).blk t).view.emb j' = ((cfg0.win 6).blk t).view.emb j := by
  obtain ⟨f0, f1, f2, f3, f4, f5, f6⟩ := idx_facts t
  have hj0 : (j 0).val < 1 := (j 0).isLt
  have hj0' : (j' 0).val < 1 := (j' 0).isLt
  funext a; apply Fin.ext
  match a with
  | ⟨0, _⟩ => show win0_2.index t (0 : Fin 4) * 1 + 1 * (j' 0).val = win0_6.index t (0 : Fin 4) * 1 + 1 * (j 0).val; have := f2.1; omega
  | ⟨1, _⟩ => show win0_2.index t (1 : Fin 4) * 8 + 1 * (j' 1).val = win0_6.index t (1 : Fin 4) * 8 + 1 * (j 1).val; have := f2.2.1; omega
  | ⟨2, _⟩ => show win0_2.index t (2 : Fin 4) * 48 + 1 * (j' 2).val = win0_6.index t (2 : Fin 4) * 48 + 1 * (j 2).val; have := f2.2.2.1; omega
  | ⟨3, _⟩ => show win0_2.index t (3 : Fin 4) * 768 + 1 * (j' 3).val = win0_6.index t (3 : Fin 4) * 768 + 1 * (j 3).val; have := f2.2.2.2; omega

theorem emb_g3 (t : Fin cfg0.N) (j j' : S1x8x48x768.Idx) (h1 : (j' 1).val = (j 1).val) (h2 : (j' 2).val = (j 2).val) (h3 : (j' 3).val = (j 3).val) :
    ((cfg0.win 3).blk t).view.emb j' = ((cfg0.win 6).blk t).view.emb j := by
  obtain ⟨f0, f1, f2, f3, f4, f5, f6⟩ := idx_facts t
  have hj0 : (j 0).val < 1 := (j 0).isLt
  have hj0' : (j' 0).val < 1 := (j' 0).isLt
  funext a; apply Fin.ext
  match a with
  | ⟨0, _⟩ => show win0_3.index t (0 : Fin 4) * 1 + 1 * (j' 0).val = win0_6.index t (0 : Fin 4) * 1 + 1 * (j 0).val; have := f3.1; omega
  | ⟨1, _⟩ => show win0_3.index t (1 : Fin 4) * 8 + 1 * (j' 1).val = win0_6.index t (1 : Fin 4) * 8 + 1 * (j 1).val; have := f3.2.1; omega
  | ⟨2, _⟩ => show win0_3.index t (2 : Fin 4) * 48 + 1 * (j' 2).val = win0_6.index t (2 : Fin 4) * 48 + 1 * (j 2).val; have := f3.2.2.1; omega
  | ⟨3, _⟩ => show win0_3.index t (3 : Fin 4) * 768 + 1 * (j' 3).val = win0_6.index t (3 : Fin 4) * 768 + 1 * (j 3).val; have := f3.2.2.2; omega

theorem emb_w4 (t : Fin cfg0.N) (j : S1x8x48x768.Idx) (p : S1x48x768.Idx) (h1 : (p 1).val = (j 2).val) (h2 : (p 2).val = (j 3).val) :
    ((cfg0.win 4).blk t).view.emb p = pix (((cfg0.win 6).blk t).view.emb j) := by
  obtain ⟨f0, f1, f2, f3, f4, f5, f6⟩ := idx_facts t
  have hj0 : (j 0).val < 1 := (j 0).isLt
  have hp0 : (p 0).val < 1 := (p 0).isLt
  funext a; apply Fin.ext
  match a with
  | ⟨0, _⟩ => show win0_4.index t (0 : Fin 3) * 1 + 1 * (p 0).val = win0_6.index t (0 : Fin 4) * 1 + 1 * (j 0).val; have := f4.1; omega
  | ⟨1, _⟩ => show win0_4.index t (1 : Fin 3) * 48 + 1 * (p 1).val = win0_6.index t (2 : Fin 4) * 48 + 1 * (j 2).val; have := f4.2.1; omega
  | ⟨2, _⟩ => show win0_4.index t (2 : Fin 3) * 768 + 1 * (p 2).val = win0_6.index t (3 : Fin 4) * 768 + 1 * (j 3).val; have := f4.2.2; omega

theorem emb_w5 (t : Fin cfg0.N) (j : S1x8x48x768.Idx) (p : S1x48x768.Idx) (h1 : (p 1).val = (j 2).val) (h2 : (p 2).val = (j 3).val) :
    ((cfg0.win 5).blk t).view.emb p = pix (((cfg0.win 6).blk t).view.emb j) := by
  obtain ⟨f0, f1, f2, f3, f4, f5, f6⟩ := idx_facts t
  have hj0 : (j 0).val < 1 := (j 0).isLt
  have hp0 : (p 0).val < 1 := (p 0).isLt
  funext a; apply Fin.ext
  match a with
  | ⟨0, _⟩ => show win0_5.index t (0 : Fin 3) * 1 + 1 * (p 0).val = win0_6.index t (0 : Fin 4) * 1 + 1 * (j 0).val; have := f5.1; omega
  | ⟨1, _⟩ => show win0_5.index t (1 : Fin 3) * 48 + 1 * (p 1).val = win0_6.index t (2 : Fin 4) * 48 + 1 * (j 2).val; have := f5.2.1; omega
  | ⟨2, _⟩ => show win0_5.index t (2 : Fin 3) * 768 + 1 * (p 2).val = win0_6.index t (3 : Fin 4) * 768 + 1 * (j 3).val; have := f5.2.2; omega

theorem rd0 (c : Dev nD) (t : Fin cfg0.N) (j j' : S1x8x48x768.Idx) (h1 : (j' 1).val = (j 1).val) (h2 : (j' 2).val = (j 2).val) (h3 : (j' 3).val = (j 3).val) :
    iblk m c 0 t j' = V m c main_v47 (((cfg0.win 6).blk t).view.emb j) := by
  show V m c main_v47 (((cfg0.win 0).blk t).view.emb j') = _
  rw [emb_g0 t j j' h1 h2 h3]

theorem rd1 (c : Dev nD) (t : Fin cfg0.N) (j j' : S1x8x48x768.Idx) (h1 : (j' 1).val = (j 1).val) (h2 : (j' 2).val = (j 2).val) (h3 : (j' 3).val = (j 3).val) :
    iblk m c 1 t j' = V m c main_v62 (((cfg0.win 6).blk t).view.emb j) := by
  show V m c main_v62 (((cfg0.win 1).blk t).view.emb j') = _
  rw [emb_g1 t j j' h1 h2 h3]

theorem rd2 (c : Dev nD) (t : Fin cfg0.N) (j j' : S1x8x48x768.Idx) (h1 : (j' 1).val = (j 1).val) (h2 : (j' 2).val = (j 2).val) (h3 : (j' 3).val = (j 3).val) :
    iblk m c 2 t j' = V m c main_v77 (((cfg0.win 6).blk t).view.emb j) := by
  show V m c main_v77 (((cfg0.win 2).blk t).view.emb j') = _
  rw [emb_g2 t j j' h1 h2 h3]

theorem rd3 (c : Dev nD) (t : Fin cfg0.N) (j j' : S1x8x48x768.Idx) (h1 : (j' 1).val = (j 1).val) (h2 : (j' 2).val = (j 2).val) (h3 : (j' 3).val = (j 3).val) :
    iblk m c 3 t j' = V m c main_v92 (((cfg0.win 6).blk t).view.emb j) := by
  show V m c main_v92 (((cfg0.win 3).blk t).view.emb j') = _
  rw [emb_g3 t j j' h1 h2 h3]

theorem rd4 (c : Dev nD) (t : Fin cfg0.N) (j : S1x8x48x768.Idx) (p : S1x48x768.Idx) (h1 : (p 1).val = (j 2).val) (h2 : (p 2).val = (j 3).val) :
    iblk m c 4 t p = V m c main_v21 (pix (((cfg0.win 6).blk t).view.emb j)) := by
  show V m c main_v21 (((cfg0.win 4).blk t).view.emb p) = _
  rw [emb_w4 t j p h1 h2]

theorem rd5 (c : Dev nD) (t : Fin cfg0.N) (j : S1x8x48x768.Idx) (p : S1x48x768.Idx) (h1 : (p 1).val = (j 2).val) (h2 : (p 2).val = (j 3).val) :
    iblk m c 5 t p = V m c main_v22 (pix (((cfg0.win 6).blk t).view.emb j)) := by
  show V m c main_v22 (((cfg0.win 5).blk t).view.emb p) = _
  rw [emb_w5 t j p h1 h2]

/-- The six arrays the region finds, blended: what the output array holds after the run. -/
abbrev result (c : Dev nD) : S4x16x768x768.Idx → Elt F .f32 :=
  blend (V m c main_v47) (V m c main_v62) (V m c main_v77) (V m c main_v92) (V m c main_v21) (V m c main_v22)

/-- What point `t` writes back is block `t` of the blend of the six arrays. -/
theorem flushed_eq (c : Dev nD) (t : Fin cfg0.N) :
    (dats m 0 c).flushed 6 t = ((cfg0.win 6).blk t).view.read (Elt F) (result m c) := by
  rw [Value.flushed6, out_eq]
  funext j
  show Value.E6 (iblk m c 0 t) (iblk m c 4 t) (iblk m c 5 t) (iblk m c 1 t) (iblk m c 2 t) (iblk m c 3 t) j
    = blend (V m c main_v47) (V m c main_v62) (V m c main_v77) (V m c main_v92) (V m c main_v21) (V m c main_v22) (((cfg0.win 6).blk t).view.emb j)
  exact blend_blocks (iblk m c 0 t) (iblk m c 1 t) (iblk m c 2 t) (iblk m c 3 t) (iblk m c 4 t) (iblk m c 5 t)
    (V m c main_v47) (V m c main_v62) (V m c main_v77) (V m c main_v92) (V m c main_v21) (V m c main_v22)
    (fun j => ((cfg0.win 6).blk t).view.emb j)
    (rd0 m c t) (rd1 m c t) (rd2 m c t) (rd3 m c t) (rd4 m c t) (rd5 m c t) j

/-- An index of the output is in point `t`'s block iff each coordinate is in the block's range on its axis. -/
theorem mem_blk (t : Fin cfg0.N) (i : S4x16x768x768.Idx) :
    i ∈ ((cfg0.win 6).blk t).view.set ↔ ∀ a : Fin 4, win0_6.index t a * S1x8x48x768.size a ≤ (i a).val ∧ (i a).val < win0_6.index t a * S1x8x48x768.size a + S1x8x48x768.size a := by
  show i ∈ ((View.whole main_v93).slice (win0_6.rect t)).set ↔ _
  rw [View.set_slice_whole, Rect.mem_set_unit]
  exact Iff.rfl

/-- The blocks tile the output: (b, ch, r, col) lies in the block of batch b, channel group ch / 8, row tile r / 48. -/
theorem cover (i : S4x16x768x768.Idx) : ∃ t : Fin cfg0.N, (cfg0.win 6).flush t = true ∧ i ∈ ((cfg0.win 6).blk t).view.set := by
  have hi0 : (i 0).val < 4 := (i 0).isLt
  have hi1 : (i 1).val < 16 := (i 1).isLt
  have hi2 : (i 2).val < 768 := (i 2).isLt
  have hi3 : (i 3).val < 768 := (i 3).isLt
  obtain ⟨t, ht⟩ := idx_onto ⟨(i 0).val, hi0⟩ ⟨(i 1).val / 8, by omega⟩ ⟨(i 2).val / 48, by omega⟩
  have q0 : win0_6.index t (0 : Fin 4) = (i 0).val := congrFun ht 0
  have q1 : win0_6.index t (1 : Fin 4) = (i 1).val / 8 := congrFun ht 1
  have q2 : win0_6.index t (2 : Fin 4) = (i 2).val / 48 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 8 ≤ (i 1).val ∧ (i 1).val < win0_6.index t (1 : Fin 4) * 8 + 8; omega
  | ⟨2, _⟩ => show win0_6.index t (2 : Fin 4) * 48 ≤ (i 2).val ∧ (i 2).val < win0_6.index t (2 : Fin 4) * 48 + 48; omega
  | ⟨3, _⟩ => show win0_6.index t (3 : Fin 4) * 768 ≤ (i 3).val ∧ (i 3).val < win0_6.index t (3 : Fin 4) * 768 + 768; omega

/-- The output array after the run is the blend of the six arrays the region found. -/
theorem final (c : Dev nD) : (dats m 0 c).arrAt 6 cfg0.N = result m c :=
  (dats m 0 c).arrAt_eq_of_cover 6 (result m c) (fun t _ => flushed_eq m c t) (fun i => cover i)

/-- The kernel's run: the output array ends at the blend of the six staged arrays, the arguments unchanged. -/
theorem run : θ_run defs (onTc (τ := τ) (main (F := F))) ⟨m, fun _ => 0, ρ⟩ fun r => ∀ c : Dev nD,
      r.2.mem ((c : Thread nD τ).loc main_v93) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blend

end
-- ==== Proof.KernelHost.lean ====
/-
  The six arrays the kernel's pallas_call is launched on, as functions of the arguments: the host operations before
  the call compute the shared chain's weights and gathered planes, each gathered plane transposed to [4, 16, 768, 768].
  A gathered plane is read in three steps: the operations up to the gather, which leave the two index planes of the
  joined index array unevaluated; then each index plane on its own; the texture clamp needs nothing.
-/
import proofs.«417494_j64922725646779_3_alg».proof.Proof.Gen.KernelIdeal.Frame
import proofs.«417494_j64922725646779_3_alg».proof.Proof.HostChain
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal (Chain.wx Chain.wy Chain.g00 Chain.g01 Chain.g10 Chain.g11)

variable {F : FTy → Type} [FloatOps F]
variable (m : (ℓ : Loc nD τ sig) → Buf (Elt F) ℓ)

set_option maxHeartbeats 4000000 in
set_option maxRecDepth 8192 in
/-- The column weights the region finds. -/
theorem main_v21_eq (c : Dev nD) :
    (V m c main_v21 : S4x768x768.Idx → Elt F .f32) = Cert.ReferenceIdeal.Chain.wx (m ((c : Thread nD τ).loc main_arg0)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [TRef.ofBuf, TRef.toBuf, cast_eq]
  rfl

set_option maxHeartbeats 4000000 in
set_option maxRecDepth 8192 in
/-- The row weights the region finds. -/
theorem main_v22_eq (c : Dev nD) :
    (V m c main_v22 : S4x768x768.Idx → Elt F .f32) = Cert.ReferenceIdeal.Chain.wy (m ((c : Thread nD τ).loc main_arg0)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [TRef.ofBuf, TRef.toBuf, cast_eq]
  rfl

set_option maxHeartbeats 4000000 in
set_option maxRecDepth 8192 in
/-- A gathered plane the region finds, transposed. -/
theorem main_v47_eq (c : Dev nD) :
    (V m c main_v47 : S4x16x768x768.Idx → Elt F .f32)
      = transpose S4x16x768x768 [1, 0, 2, 3] (Cert.ReferenceIdeal.Chain.g00 (m ((c : Thread nD τ).loc main_arg0)) (m ((c : Thread nD τ).loc main_arg1))) transposes_S16x4x768x768_S4x16x768x768_1_0_2_3 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  refine congrArg (fun z => transpose S4x16x768x768 [1, 0, 2, 3] z transposes_S16x4x768x768_S4x16x768x768_1_0_2_3) ?_
  unfold Cert.ReferenceIdeal.Chain.g00
  refine Cert.ReferenceIdeal.Chain.gat_congr ?_ ?_ ?_
  · rfl
  · after_results_simp
    simp only [TRef.ofBuf, TRef.toBuf, cast_eq]
    rfl
  · after_results_simp
    simp only [TRef.ofBuf, TRef.toBuf, cast_eq]
    rfl

set_option maxHeartbeats 4000000 in
set_option maxRecDepth 8192 in
/-- A gathered plane the region finds, transposed. -/
theorem main_v62_eq (c : Dev nD) :
    (V m c main_v62 : S4x16x768x768.Idx → Elt F .f32)
      = transpose S4x16x768x768 [1, 0, 2, 3] (Cert.ReferenceIdeal.Chain.g01 (m ((c : Thread nD τ).loc main_arg0)) (m ((c : Thread nD τ).loc main_arg1))) transposes_S16x4x768x768_S4x16x768x768_1_0_2_3 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  refine congrArg (fun z => transpose S4x16x768x768 [1, 0, 2, 3] z transposes_S16x4x768x768_S4x16x768x768_1_0_2_3) ?_
  unfold Cert.ReferenceIdeal.Chain.g01
  refine Cert.ReferenceIdeal.Chain.gat_congr ?_ ?_ ?_
  · rfl
  · after_results_simp
    simp only [TRef.ofBuf, TRef.toBuf, cast_eq]
    rfl
  · after_results_simp
    simp only [TRef.ofBuf, TRef.toBuf, cast_eq]
    rfl

set_option maxHeartbeats 4000000 in
set_option maxRecDepth 8192 in
/-- A gathered plane the region finds, transposed. -/
theorem main_v77_eq (c : Dev nD) :
    (V m c main_v77 : S4x16x768x768.Idx → Elt F .f32)
      = transpose S4x16x768x768 [1, 0, 2, 3] (Cert.ReferenceIdeal.Chain.g10 (m ((c : Thread nD τ).loc main_arg0)) (m ((c : Thread nD τ).loc main_arg1))) transposes_S16x4x768x768_S4x16x768x768_1_0_2_3 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  refine congrArg (fun z => transpose S4x16x768x768 [1, 0, 2, 3] z transposes_S16x4x768x768_S4x16x768x768_1_0_2_3) ?_
  unfold Cert.ReferenceIdeal.Chain.g10
  refine Cert.ReferenceIdeal.Chain.gat_congr ?_ ?_ ?_
  · rfl
  · after_results_simp
    simp only [TRef.ofBuf, TRef.toBuf, cast_eq]
    rfl
  · after_results_simp
    simp only [TRef.ofBuf, TRef.toBuf, cast_eq]
    rfl

set_option maxHeartbeats 4000000 in
set_option maxRecDepth 8192 in
/-- A gathered plane the region finds, transposed. -/
theorem main_v92_eq (c : Dev nD) :
    (V m c main_v92 : S4x16x768x768.Idx → Elt F .f32)
      = transpose S4x16x768x768 [1, 0, 2, 3] (Cert.ReferenceIdeal.Chain.g11 (m ((c : Thread nD τ).loc main_arg0)) (m ((c : Thread nD τ).loc main_arg1))) transposes_S16x4x768x768_S4x16x768x768_1_0_2_3 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  refine congrArg (fun z => transpose S4x16x768x768 [1, 0, 2, 3] z transposes_S16x4x768x768_S4x16x768x768_1_0_2_3) ?_
  unfold Cert.ReferenceIdeal.Chain.g11
  refine Cert.ReferenceIdeal.Chain.gat_congr ?_ ?_ ?_
  · rfl
  · after_results_simp
    simp only [TRef.ofBuf, TRef.toBuf, cast_eq]
    rfl
  · after_results_simp
    simp only [TRef.ofBuf, TRef.toBuf, cast_eq]
    rfl

end Cert.KernelIdeal.Host

end
-- ==== Proof.BlendLaw.lean ====
/-
  The two blends are one function.

  The reference blends [16, 4, 768, 768] arrays on the host, each term as (g * a) * b with the weight planes first given
  a leading unit axis and then repeated over the channels, and transposes the sum to [4, 16, 768, 768]; the kernel
  blends the transposed planes, each term as g * (a * b) with the weights read at the pixel under the index. At the
  output index (b, ch, r, col) both read the gathered planes at (ch, b, r, col) and the weights at the pixel (b, r, col),
  and the two values differ only by the bracketing of each product: multiplication of extended reals is associative
  (with no finiteness needed: no sum is distributed over and nothing is cancelled), so they are equal.
-/
import proofs.«417494_j64922725646779_3_alg».proof.Proof.HostChain
import proofs.«417494_j64922725646779_3_alg».proof.Proof.BlendBlocks
import Idealize.ShloMosaic.Lib.Pipeline.Value
import Idealize.ShloMosaic.PureOps.Ideal

noncomputable section

namespace Cert.ReferenceIdeal.Chain

open Cert.ReferenceIdeal Cert.ReferenceIdeal.Gen Idealize.ShloMosaic Idealize.ShloMosaic.TcCoe

variable {F : FTy → Type} [FloatOps F]

/-- The pixel (batch, row, column) under an index (channel, batch, row, column) of the untransposed arrays. -/
abbrev pixOf (k : S16x4x768x768.Idx) : S4x768x768.Idx := fun a => match a with
  | ⟨0, _⟩ => ⟨(k 1).val, (k 1).isLt⟩
  | ⟨1, _⟩ => ⟨(k 2).val, (k 2).isLt⟩
  | ⟨2, _⟩ => ⟨(k 3).val, (k 3).isLt⟩

/-- The index (channel, batch, row, column) an output index (batch, channel, row, column) is transposed from. -/
abbrev swap (i : S4x16x768x768.Idx) : S16x4x768x768.Idx := fun a => match a with
  | ⟨0, _⟩ => ⟨(i 1).val, (i 1).isLt⟩
  | ⟨1, _⟩ => ⟨(i 0).val, (i 0).isLt⟩
  | ⟨2, _⟩ => ⟨(i 2).val, (i 2).isLt⟩
  | ⟨3, _⟩ => ⟨(i 3).val, (i 3).isLt⟩

/-- A weight plane with a leading unit axis, read at an index: the plane at the last three coordinates. -/
theorem lift1_apply (w : (⟨S4x768x768, .f32⟩ : BufTy).Contents (Elt F)) (k : S1x4x768x768.Idx) :
    lift1 w k = w (fun a => match a with
      | ⟨0, _⟩ => ⟨(k 1).val, (k 1).isLt⟩
      | ⟨1, _⟩ => ⟨(k 2).val, (k 2).isLt⟩
      | ⟨2, _⟩ => ⟨(k 3).val, (k 3).isLt⟩) := by
  unfold lift1
  exact broadcastInDim_apply _ bcast_S4x768x768_S1x4x768x768_1_2_3 w k _ (fun a => match a with
    | ⟨0, _⟩ => by show (k 1).val = if (4 : Nat) = 1 then 0 else (k 1).val; rw [if_neg (by decide)]
    | ⟨1, _⟩ => by show (k 2).val = if (768 : Nat) = 1 then 0 else (k 2).val; rw [if_neg (by decide)]
    | ⟨2, _⟩ => by show (k 3).val = if (768 : Nat) = 1 then 0 else (k 3).val; rw [if_neg (by decide)])

/-- The constant one, read at an index. -/
theorem ones1_apply (k : S1x4x768x768.Idx) : ones1 (F := F) k = (FloatOps.ofBits .f32 0x3F800000#32) := by
  unfold ones1
  exact broadcastInDim_apply _ bcast_S_S1x4x768x768 (constant S_ .f32 0x3F800000#32) k (fun a => a.elim0) (fun a => a.elim0)

/-- An array repeated over the channels, read at an index: the array at channel 0 of its unit axis. -/
theorem overCh_apply (z : (⟨S1x4x768x768, .f32⟩ : BufTy).Contents (Elt F)) (k : S16x4x768x768.Idx) :
    overCh z k = z (fun a => match a with
      | ⟨0, _⟩ => ⟨0, Nat.one_pos⟩
      | ⟨1, _⟩ => ⟨(k 1).val, (k 1).isLt⟩
      | ⟨2, _⟩ => ⟨(k 2).val, (k 2).isLt⟩
      | ⟨3, _⟩ => ⟨(k 3).val, (k 3).isLt⟩) := by
  unfold overCh
  exact broadcastInDim_apply _ bcast_S1x4x768x768_S16x4x768x768_0_1_2_3 z k _ (fun a => match a with
    | ⟨0, _⟩ => by show 0 = if (1 : Nat) = 1 then 0 else (k 0).val; rw [if_pos rfl]
    | ⟨1, _⟩ => by show (k 1).val = if (4 : Nat) = 1 then 0 else (k 1).val; rw [if_neg (by decide)]
    | ⟨2, _⟩ => by show (k 2).val = if (768 : Nat) = 1 then 0 else (k 2).val; rw [if_neg (by decide)]
    | ⟨3, _⟩ => by show (k 3).val = if (768 : Nat) = 1 then 0 else (k 3).val; rw [if_neg (by decide)])

/-- A weight factor w, repeated over the channels, at an index: w at the pixel under it. -/
theorem factor_apply (w : (⟨S4x768x768, .f32⟩ : BufTy).Contents (Elt F)) (k : S16x4x768x768.Idx) : overCh (lift1 w) k = w (pixOf k) := by
  rw [overCh_apply, lift1_apply]
  rfl

/-- A weight factor 1 - w, repeated over the channels, at an index: 1 - w at the pixel under it. -/
theorem cofactor_apply (w : (⟨S4x768x768, .f32⟩ : BufTy).Contents (Elt F)) (k : S16x4x768x768.Idx) :
    overCh (subf ones1 (lift1 w)) k = FloatOps.subf (FloatOps.ofBits .f32 0x3F800000#32) (w (pixOf k)) := by
  rw [overCh_apply]
  show FloatOps.subf (ones1 (F := F) _) (lift1 w _) = _
  rw [ones1_apply, lift1_apply]
  rfl

/-- The host blend at an index. -/
theorem blendHost_apply (G00 G01 G10 G11 : (⟨S16x4x768x768, .f32⟩ : BufTy).Contents (Elt F)) (WX WY : (⟨S4x768x768, .f32⟩ : BufTy).Contents (Elt F)) (k : S16x4x768x768.Idx) :
    blendHost G00 G01 G10 G11 WX WY k =
      FloatOps.addf (FloatOps.addf (FloatOps.addf
        (FloatOps.mulf (FloatOps.mulf (G00 k) (FloatOps.subf (FloatOps.ofBits .f32 0x3F800000#32) (WX (pixOf k)))) (FloatOps.subf (FloatOps.ofBits .f32 0x3F800000#32) (WY (pixOf k))))
        (FloatOps.mulf (FloatOps.mulf (G01 k) (WX (pixOf k))) (FloatOps.subf (FloatOps.ofBits .f32 0x3F800000#32) (WY (pixOf k)))))
        (FloatOps.mulf (FloatOps.mulf (G10 k) (FloatOps.subf (FloatOps.ofBits .f32 0x3F800000#32) (WX (pixOf k)))) (WY (pixOf k))))
        (FloatOps.mulf (FloatOps.mulf (G11 k) (WX (pixOf k))) (WY (pixOf k))) := by
  show FloatOps.addf (FloatOps.addf (FloatOps.addf
        (FloatOps.mulf (FloatOps.mulf (G00 k) (overCh (subf ones1 (lift1 WX)) k)) (overCh (subf ones1 (lift1 WY)) k))
        (FloatOps.mulf (FloatOps.mulf (G01 k) (overCh (lift1 WX) k)) (overCh (subf ones1 (lift1 WY)) k)))
        (FloatOps.mulf (FloatOps.mulf (G10 k) (overCh (subf ones1 (lift1 WX)) k)) (overCh (lift1 WY) k)))
        (FloatOps.mulf (FloatOps.mulf (G11 k) (overCh (lift1 WX) k)) (overCh (lift1 WY) k)) = _
  rw [cofactor_apply WX k, cofactor_apply WY k, factor_apply WX k, factor_apply WY k]

/-- At the extended reals, the kernel's blend of the transposed planes is the transposed host blend. -/
theorem blend_transpose (hT : S16x4x768x768.Transposes [1, 0, 2, 3] S4x16x768x768)
    (G00 G01 G10 G11 : S16x4x768x768.Idx → Elt Ideal .f32) (WX WY : S4x768x768.Idx → Elt Ideal .f32) :
    Cert.KernelIdeal.Blend.blend (F := Ideal) (transpose S4x16x768x768 [1, 0, 2, 3] G00 hT) (transpose S4x16x768x768 [1, 0, 2, 3] G01 hT)
        (transpose S4x16x768x768 [1, 0, 2, 3] G10 hT) (transpose S4x16x768x768 [1, 0, 2, 3] G11 hT) WX WY
      = transpose S4x16x768x768 [1, 0, 2, 3] (blendHost (F := Ideal) G00 G01 G10 G11 WX WY) hT := by
  funext i
  have tr : ∀ X : S16x4x768x768.Idx → Elt Ideal .f32, transpose S4x16x768x768 [1, 0, 2, 3] X hT i = X (swap i) := fun X =>
    transpose_apply [1, 0, 2, 3] X hT i (swap i) (fun b => match b with
      | ⟨0, _⟩ => rfl
      | ⟨1, _⟩ => rfl
      | ⟨2, _⟩ => rfl
      | ⟨3, _⟩ => rfl)
  rw [tr (blendHost (F := Ideal) G00 G01 G10 G11 WX WY), blendHost_apply]
  unfold Cert.KernelIdeal.Blend.blend
  rw [tr G00, tr G01, tr G10, tr G11]
  show (G00 (swap i) * ((Ideal.ofBits .f32 0x3F800000#32 - WX (pixOf (swap i))) * (Ideal.ofBits .f32 0x3F800000#32 - WY (pixOf (swap i))))
        + G01 (swap i) * (WX (pixOf (swap i)) * (Ideal.ofBits .f32 0x3F800000#32 - WY (pixOf (swap i))))
        + G10 (swap i) * ((Ideal.ofBits .f32 0x3F800000#32 - WX (pixOf (swap i))) * WY (pixOf (swap i)))
        + G11 (swap i) * (WX (pixOf (swap i)) * WY (pixOf (swap i))) : EReal)
      = G00 (swap i) * (Ideal.ofBits .f32 0x3F800000#32 - WX (pixOf (swap i))) * (Ideal.ofBits .f32 0x3F800000#32 - WY (pixOf (swap i)))
        + G01 (swap i) * WX (pixOf (swap i)) * (Ideal.ofBits .f32 0x3F800000#32 - WY (pixOf (swap i)))
        + G10 (swap i) * (Ideal.ofBits .f32 0x3F800000#32 - WX (pixOf (swap i))) * WY (pixOf (swap i))
        + G11 (swap i) * WX (pixOf (swap i)) * WY (pixOf (swap i))
  simp only [mul_assoc]

end Cert.ReferenceIdeal.Chain

end
-- ==== Proof.lean ====
/-
  A bilinear texture lookup: for a sampling grid x : [4, 768, 768, 2] in [-1, 1] and a texture data : [16, 1024, 1024],
  the texture is clamped, each pixel's two coordinates are unnormalized to [0, 1023] and clamped, and the result at
  (batch, channel, row, column) is the bilinear blend

      g00 (1 - wx)(1 - wy) + g01 wx (1 - wy) + g10 (1 - wx) wy + g11 wx wy

  of the four texels of that channel around the pixel's coordinates, wx and wy the coordinates' fractional parts.
  Both programs compute the weights and the four gathered texel planes by the same host operations
  (Proof/HostChain.lean names them as functions of the arguments and never opens the gather). The kernel then
  transposes each plane to [4, 16, 768, 768] and blends block by block in one pallas_call, bracketing each term as
  g * (a * b) (Proof/BlendBlocks.lean: the blocks tile the output, so the output is one function of the six staged
  arrays; Proof/KernelHost.lean: the six arrays are the shared functions); the reference blends [16, 4, 768, 768]
  arrays on the host, bracketing (g * a) * b, and transposes the sum (Proof/RefRun.lean). At the extended reals the
  two results agree index by index by associativity of multiplication (Proof/BlendLaw.lean); the precondition is
  not needed for that. The idealization rewrote nothing, so `preserves` has no conjunct.
-/
import proofs.«417494_j64922725646779_3_alg».proof.Defs
import proofs.«417494_j64922725646779_3_alg».proof.Proof.Gen.Kernel
import proofs.«417494_j64922725646779_3_alg».proof.Proof.Gen.Kernel.Frame
import proofs.«417494_j64922725646779_3_alg».proof.Proof.Gen.KernelIdeal
import proofs.«417494_j64922725646779_3_alg».proof.Proof.Gen.KernelIdeal.Frame
import proofs.«417494_j64922725646779_3_alg».proof.Proof.Gen.KernelIdeal.Value
import proofs.«417494_j64922725646779_3_alg».proof.Proof.Gen.ReferenceIdeal
import proofs.«417494_j64922725646779_3_alg».proof.Proof.Gen.Pre_finite_inputs
import proofs.«417494_j64922725646779_3_alg».proof.Proof.HostChain
import proofs.«417494_j64922725646779_3_alg».proof.Proof.BlendBlocks
import proofs.«417494_j64922725646779_3_alg».proof.Proof.KernelHost
import proofs.«417494_j64922725646779_3_alg».proof.Proof.RefRun
import proofs.«417494_j64922725646779_3_alg».proof.Proof.BlendLaw
import Idealize.ShloMosaic.Adequacy
import Idealize.ShloMosaic.Init

noncomputable section

namespace Cert.Proof

open Idealize.ShloMosaic Idealize.SL.Sem

/-- The kernel's output array, as the reference's result function of the kernel's own arguments: the six staged
    arrays are the shared chain's planes (transposed) and weights, and the two blends agree at the extended reals. -/
theorem kernel_result (m : (ℓ : Loc Cert.KernelIdeal.nD Cert.KernelIdeal.τ Cert.KernelIdeal.sig) → Buf (Elt Ideal) ℓ) (c : Dev Cert.KernelIdeal.nD) :
    Cert.KernelIdeal.Blend.result m c
      = Cert.ReferenceIdeal.Chain.result (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.KernelIdeal.Blend.result Cert.ReferenceIdeal.Chain.result
  rw [Cert.KernelIdeal.Host.main_v47_eq m c, Cert.KernelIdeal.Host.main_v62_eq m c, Cert.KernelIdeal.Host.main_v77_eq m c,
    Cert.KernelIdeal.Host.main_v92_eq m c, Cert.KernelIdeal.Host.main_v21_eq m c, Cert.KernelIdeal.Host.main_v22_eq m c]
  exact Cert.ReferenceIdeal.Chain.blend_transpose _ _ _ _ _ _ _

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result array at the reference's result function of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Chain.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_result m c), (h c).2⟩)
      (Cert.KernelIdeal.Blend.run (F := Ideal) m ρ)
  · refine (θ_run Cert.ReferenceIdeal.defs _ _).mono (fun _ h c => ⟨(h c).1.trans ?_, (h c).2⟩)
      (Cert.ReferenceIdeal.ValueP.run (F := Ideal) m' ρ')
    unfold Cert.ReferenceIdeal.ValueP.res_main_v118
    rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
